-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048 .f32) (main_arg13 : FVec F S2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S1x8192 : Shape := ⟨2, ![1, 8192]⟩
abbrev S8192x8192 : Shape := ⟨2, ![8192, 8192]⟩
abbrev S2048x256 : Shape := ⟨2, ![2048, 256]⟩
abbrev S1x256 : Shape := ⟨2, ![1, 256]⟩
abbrev S256x8192 : Shape := ⟨2, ![256, 8192]⟩
abbrev S256x2048 : Shape := ⟨2, ![256, 2048]⟩

abbrev nBuf : Space → Nat
  | .hbm => 26
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .bf16⟩
  | .hbm, ⟨17, _⟩ => ⟨S2048x8192, .f32⟩
  | .hbm, ⟨18, _⟩ => ⟨S2048x8192, .bf16⟩
  | .hbm, ⟨19, _⟩ => ⟨S8192, .f32⟩
  | .hbm, ⟨20, _⟩ => ⟨S1x8192, .f32⟩
  | .hbm, ⟨21, _⟩ => ⟨S8192x2048, .bf16⟩
  | .hbm, ⟨22, _⟩ => ⟨S8192x2048, .bf16⟩
  | .hbm, ⟨23, _⟩ => ⟨S8192x8192, .f32⟩
  | .hbm, ⟨24, _⟩ => ⟨S8192x2048, .f32⟩
  | .hbm, ⟨25, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S256x8192, .f32⟩
  | .local _ .vmem, ⟨13, _⟩ => ⟨S256x8192, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S2048x2048_S2048x2048_S2048x2048_S2048x2048_S2048x8192_d1 : Shape.Concatenates [S2048x2048, S2048x2048, S2048x2048, S2048x2048] S2048x8192 1
  bitsLt_bf16_f32 : FTy.bits .bf16 < FTy.bits .f32
  concatenates_S2048_S2048_S2048_S2048_S8192_d0 : Shape.Concatenates [S2048, S2048, S2048, S2048] S8192 0
  shapeCasts_S8192_S1x8192 : S8192.ShapeCasts S1x8192
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S2048x2048_S2048x256_S2048x256_1_0_0_1_n_n_wf : DotDims.WF S2048x2048 S2048x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x2048.size a
  hwx0_1 : ∀ i : grid0.Coords, EltTy.bits .bf16 = 32 ∨ (Rect.block (s := S8192x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x8192.size a
  hwx0_2 : ∀ i : grid0.Coords, EltTy.bits .bf16 = 32 ∨ (Rect.block (s := S2048x8192) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x8192.size a
  hwx0_3 : ∀ i : grid0.Coords, EltTy.bits .bf16 = 32 ∨ (Rect.block (s := S2048x8192) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S8192x8192.size a
  hwx0_5 : ∀ i : grid0.Coords, EltTy.bits .f32 = 32 ∨ (Rect.block (s := S8192x8192) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .f32 = 32 ∨ (Rect.block (s := S8192x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x2048.size a
  hwx1_3 : ∀ i : grid1.Coords, EltTy.bits .f32 = 32 ∨ (Rect.block (s := S8192x2048) S256x2048.size (cc1_transform_3 i) (hinb1_3 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_v6) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_1) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048x8192, .f32⟩
  | .hbm, ⟨16, _⟩ => ⟨S2048x8192, .f32⟩
  | .hbm, ⟨17, _⟩ => ⟨S8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.K.Data0.lean ====
/-
  The first pallas_call (the fused gate matmul with bias), as the pipeline sees it: at grid point `t = (i, j)`
  (4 row tiles by 32 column tiles) the body reads row tile `i` of the two activations (2048 by 2048), column tile `j`
  of the two weight matrices (2048 by 256) and of the bias row (1 by 256), and stores one 2048 by 256 tile of
  pre-activations, which the pipeline writes back as block `(i, j)` of the output array.
  Here: each window's block at a point read off the arrays as the region finds them, what the body leaves in the
  output window's buffer as a function of the input blocks, and the pipeline's proof data over these.
-/
import proofs.«131399_j20074677141565_1_alg».proof.Proof.Gen.Kernel.Launch
import proofs.«131399_j20074677141565_1_alg».proof.Proof.Gen.Kernel.Skeleton
import proofs.«131399_j20074677141565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of an activation tile, of a weight or output tile, and of a bias tile: the rectangles the body's loads and
    its one store go through. -/
abbrev rAct0 : Rect S2048x2048 := Rect.unit (s := S2048x2048) ![0, 0] S2048x2048.size inb_S2048x2048_S2048x2048_0_0
abbrev rCol0 : Rect S2048x256 := Rect.unit (s := S2048x256) ![0, 0] S2048x256.size inb_S2048x256_S2048x256_0_0
abbrev rBias0 : Rect S1x256 := Rect.unit (s := S1x256) ![0, 0] S1x256.size inb_S1x256_S1x256_0_0

/-- The output window's buffer after the body, from the five input blocks: its one store, of the body's arithmetic. -/
def out0_5 (x0 x1 : Vec F S2048x2048 .bf16) (x2 x3 : Vec F S2048x256 .bf16) (x4 : Vec F S1x256 .f32) : Vec F S2048x256 .f32 :=
  View.canon [⟨rCol0, k0_pay1 (View.ld x0 rAct0) (View.ld x1 rAct0) (View.ld x2 rCol0) (View.ld x3 rCol0) (View.ld x4 rBias0)⟩]

/-- The proof data of the first pipeline on core `c`: the arrays as the region finds them; after the body at point `t`
    each input's buffer still at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

end Cert.Kernel.Fr

end
-- ==== Proof.K.Body0.lean ====
/-
  The first pallas_call's body, at every grid point: run on the six windows' current staging memrefs, the five inputs'
  holding their blocks (fetched at this point or carried from the point before, the block index not having moved) and
  the output's holding anything, it loads the five blocks whole, loads the output buffer (a value nothing reads), and
  stores the sum of the two products and the broadcast bias row over the whole output buffer. So the inputs' buffers are
  left as found and the output's holds `out0_5` of the input blocks: the pipeline's body obligation for `dat0`.
-/
import proofs.«131399_j20074677141565_1_alg».proof.Proof.K.Data0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the input windows' buffers -/

/-- Input window 0 (the row tile of the first activation) holds its block at every point, fetched there or not, for any proof
    data whose array is the region-entry contents and whose body leaves the block in place: where the pipeline does not
    fetch, the block index has not moved, so the block carried over is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the row tile of the second activation) holds its block at every point, fetched there or not, for any proof
    data whose array is the region-entry contents and whose body leaves the block in place: where the pipeline does not
    fetch, the block index has not moved, so the block carried over is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the column tile of the first weight matrix) holds its block at every point, fetched there or not, for any proof
    data whose array is the region-entry contents and whose body leaves the block in place: where the pipeline does not
    fetch, the block index has not moved, so the block carried over is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the column tile of the second weight matrix) holds its block at every point, fetched there or not, for any proof
    data whose array is the region-entry contents and whose body leaves the block in place: where the pipeline does not
    fetch, the block index has not moved, so the block carried over is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the column tile of the bias row) holds its block at every point, fetched there or not, for any proof
    data whose array is the region-entry contents and whose body leaves the block in place: where the pipeline does not
    fetch, the block index has not moved, so the block carried over is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output window's one store covers its buffer -/

/-- The one store goes through the whole tile, so every index of the output buffer is written. -/
theorem cover0_5 (p0 : Vec F S2048x256 .f32) (y : S2048x256.Idx) :
    ∃ pc ∈ ([⟨rCol0, p0⟩] : List (View.Piece (Elt F) S2048x256 .f32)), y ∈ pc.1.set :=
  View.cover_of_tiled [⟨rCol0, p0⟩] S2048x256.size (by rfl) y

/-! ## The body's triple -/

set_option maxHeartbeats 1000000 in
/-- The kernel body on whole staging memrefs, the five inputs' at read contents `x0 … x4` and the output's at anything,
    runs to the continuation holding the inputs' as they were and the output's at `out0_5 x0 x1 x2 x3 x4`: the printed
    function is its skeleton of six loads and one store, run statement by statement; what the output's memref reads
    after the store is the store's payload, the store covering the buffer. -/
theorem sound_kernel0 (c : Dev nD) (E : Set ℕ) (i : grid0.Coords)
    (arg2 : Memref sig .tc .vmem S2048x2048 .bf16) (harg2 : arg2.IsWhole) (arg3 : Memref sig .tc .vmem S2048x2048 .bf16) (harg3 : arg3.IsWhole)
    (arg4 : Memref sig .tc .vmem S2048x256 .bf16) (harg4 : arg4.IsWhole) (arg5 : Memref sig .tc .vmem S2048x256 .bf16) (harg5 : arg5.IsWhole)
    (arg6 : Memref sig .tc .vmem S1x256 .f32) (harg6 : arg6.IsWhole) (arg7 : Memref sig .tc .vmem S2048x256 .f32) (harg7 : arg7.IsWhole)
    (x0 x1 : Vec F S2048x2048 .bf16) (x2 x3 : Vec F S2048x256 .bf16) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__matmul_bias_kernel i arg2 harg2 arg3 harg3 arg4 harg4 arg5 harg5 arg6 harg6 arg7 harg7) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The inputs' buffers under the proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, what the core owes, and the six windows' current staging
    memrefs one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies at the blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Data1.lean ====
/-
  The second pallas_call (the gates and the cell update), as the pipeline sees it: at grid point `t` (32 row tiles)
  the body reads 256 rows of the pre-activations (all 8192 gate columns) and the same 256 rows of the previous cell
  state, and stores 256 rows of the new cell state and of the new hidden state, which the pipeline writes back as
  row block `t` of the two output arrays.
  Here: each window's block at a point read off the arrays as the region finds them, what the body leaves in the two
  output windows' buffers as functions of the input blocks, and the pipeline's proof data over these.
-/
import proofs.«131399_j20074677141565_1_alg».proof.Proof.Gen.Kernel.Launch
import proofs.«131399_j20074677141565_1_alg».proof.Proof.Gen.Kernel.Skeleton
import proofs.«131399_j20074677141565_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a pre-activation tile and of a state tile: the rectangles the body's loads and stores go through. -/
abbrev rGate1 : Rect S256x8192 := Rect.unit (s := S256x8192) ![0, 0] S256x8192.size inb_S256x8192_S256x8192_0_0
abbrev rState1 : Rect S256x2048 := Rect.unit (s := S256x2048) ![0, 0] S256x2048.size inb_S256x2048_S256x2048_0_0

/-- The new cell state's buffer after the body, from the two input blocks. -/
def out1_2 (x0 : Vec F S256x8192 .f32) (x1 : Vec F S256x2048 .f32) : Vec F S256x2048 .f32 :=
  View.canon [⟨rState1, k1_pay2 (View.ld x0 rGate1) (View.ld x1 rState1)⟩]

/-- The new hidden state's buffer after the body, from the two input blocks. -/
def out1_3 (x0 : Vec F S256x8192 .f32) (x1 : Vec F S256x2048 .f32) : Vec F S256x2048 .f32 :=
  View.canon [⟨rState1, k1_pay3 (View.ld x0 rGate1) (View.ld x1 rState1)⟩]

/-- The proof data of the second pipeline on core `c`: the arrays as the region finds them; after the body at point
    `t` each input's buffer still at its block and each output's at its function of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

end Cert.Kernel.Fr

end
-- ==== Proof.K.Body1.lean ====
/-
  The second pallas_call's body, point by point: at grid point `t` the two input windows' buffers hold their blocks
  (both are fetched at every point), so the body, run on the four windows' current buffers, loads the pre-activation
  tile and the previous cell-state tile whole, and stores the new cell state and the new hidden state whole; each
  output buffer ends as the one store's payload laid over the whole tile, whatever it held before.
  Here: the inputs' buffers before the body, the stores covering the output tiles, the body's triple, and the
  pipeline's body obligation for the proof data `dat1`.
-/
import proofs.«131399_j20074677141565_1_alg».proof.Proof.K.Data1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The pre-activation window's current buffer holds its block at every point, for any proof data whose array is the
    region-entry contents and whose body leaves the block in place: the window is fetched at every point it moves,
    is never cut and never idle. -/
theorem before1_gate_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The previous cell state's window likewise. -/
theorem before1_state_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_gate (c : Dev nD) (t : Fin cfg1.N) (d) : (dat1 V c).before 0 t d = iblk1 V c 0 t :=
  before1_gate_of V (dat1 V c) (A_eq1 V c 0) (after1_0 V c) t d

theorem before1_state (c : Dev nD) (t : Fin cfg1.N) (d) : (dat1 V c).before 1 t d = iblk1 V c 1 t :=
  before1_state_of V (dat1 V c) (A_eq1 V c 1) (after1_1 V c) t d

/-! ## The one store of each output covers its tile -/

theorem cover1_state (p0 : Vec F S256x2048 .f32) (y : S256x2048.Idx) :
    ∃ pc ∈ ([⟨rState1, p0⟩] : List (View.Piece (Elt F) S256x2048 .f32)), y ∈ pc.1.set :=
  View.cover_of_tiled [⟨rState1, p0⟩] S256x2048.size (by rfl) y

/-! ## The body's triple -/

set_option maxHeartbeats 1000000 in
/-- The kernel body on whole buffers, the two inputs' at read contents `x0`, `x1` and the two outputs' at anything,
    runs to the continuation holding the inputs' as they were and each output's at its function of the inputs': the
    printed function is its skeleton of loads and stores, run operation by operation; each output is loaded once
    (the value is not used) and then stored whole, and the one store covers the tile. -/
theorem sound_kernel1 (c : Dev nD) (E : Set ℕ) (i : grid1.Coords)
    (arg1 : Memref sig .tc .vmem S256x8192 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (x0 : Vec F S256x8192 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__gate_combine_kernel i arg1 harg1 arg2 harg2 arg3 harg3 arg4 harg4) K := by
  simp only [cc1__gate_combine_kernel_eq_skeleton]; unfold cc1__gate_combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_state _)
  iexists _; isplitr
  swap; · iexact H3
  ipureintro
  exact View.read_writes_eq_canon _ _ _ (cover1_state _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_gate, before1_state]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Whole.lean ====
/-
  The whole run of the program: one stretch of host operations (the weight and bias concatenations, the casts of the
  matmul operands, the bias reshaped to a row), then the two pallas_calls one after the other.
  The buffer contents at each boundary are a fold from the launch memory: after the host stretch (`W1`), after the
  first call, whose output array holds what its write-backs leave and every other buffer what it held (`W2`), and the
  same after the second call (`W3`). Each call is a segment whose proof data sit at its entry contents; the launch over
  the three segments gives: every weakly fair execution terminates, and every unscoped buffer ends at `W3`.
  Read off `W3`: no argument array is written (the host stretch writes only its own results, the first call only the
  pre-activations, the second only its two results), and the two results are the second call's output arrays after its
  last write-back.
-/
import proofs.«131399_j20074677141565_1_alg».proof.Proof.K.Body0
import proofs.«131399_j20074677141565_1_alg».proof.Proof.K.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch: the first call's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second call's entry. -/
abbrev E1 : (c : Dev nD) → (b : Ref sig .tc) → Buf (Elt F) ((c : Thread nD τ).loc b) := fun c b => W2 m ρ c b
theorem exit0_arr (c : Dev nD) (w : Fin cfg0.W) : (dat0 (E0 m ρ) c).arrAt w cfg0.N = E1 m ρ c (Pipeline.arrRef spec0 w) :=
  (W2_arr m ρ c w).symm
theorem exit0_rest (c : Dev nD) : ∀ b, b ∉ Finset.univ.image (Pipeline.arrRef spec0) → E1 m ρ c b = E0 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (E1 m ρ) c).arrAt w cfg1.N
theorem W3_arr (c : Dev nD) (w : Fin cfg1.W) :
    W3 m ρ c (Proc.devRef .tc (Pipeline.arrRef spec1 w)) = (dat1 (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E2 : (c : Dev nD) → (b : Ref sig .tc) → Buf (Elt F) ((c : Thread nD τ).loc b) := fun c b => W3 m ρ c b
theorem exit1_arr (c : Dev nD) (w : Fin cfg1.W) : (dat1 (E1 m ρ) c).arrAt w cfg1.N = E2 m ρ c (Pipeline.arrRef spec1 w) :=
  (W3_arr m ρ c w).symm
theorem exit1_rest (c : Dev nD) : ∀ b, b ∉ Finset.univ.image (Pipeline.arrRef spec1) → E2 m ρ c b = E1 m ρ c b :=
  fun b hb => W3_of_ne m ρ c b fun w e => hb (Finset.mem_image.mpr ⟨w, Finset.mem_univ _, e⟩)

/-! ## The proof data family and the thread state -/

/-- No pipeline has a prefetched table. -/
abbrev noTables : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_noalloc : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) noTables (pdats m ρ) () defs₀ 𝒱₀ L lv) :=
  [ .host (hseg hostOps0 hostOps0_sub hostOps0_noalloc (W0 m ρ)),
    .region (reg0 m ρ),
    .region (reg1 m ρ) ]
/-- The program IS the run of the segments. -/
theorem main_run (c : Dev nD) : main (F := F) c = Pipeline.Seg.run (items m ρ) := (main_chain c).trans (by chain_rfl)

set_option backward.isDefEq.respectTransparency.types false in
/-- THE RUN: from any memory with zero counters every weakly fair execution terminates, nothing faulting, and every
    unscoped buffer of every core ends holding `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What `W3` holds at the arguments and at the results -/

/-- The references the host stretch writes. -/
abbrev hostWrites : List (Ref sig .tc) := [main_v0, main_v1, main_v2, main_v3, main_v4, main_v5, main_v6, main_v7]
theorem hostOps0_writes_sub : (hostOps0 : List (HloOp τ sig (Elt F))).Forall fun op => op.writes ⊆ (hostWrites.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.reshape_writes, StableHlo.nary_writes, Finset.singleton_subset_iff, List.mem_toFinset]; exact List.mem_map_of_mem (by decide))

/-- A buffer the host stretch does not write holds its launch contents after it. -/
theorem W1_of (c : Dev nD) (b : Ref sig .tc) (h : b ∉ hostWrites) : W1 m ρ c (Proc.devRef .tc b) = m ((c : Thread nD τ).loc b) :=
  StableHlo.after_of_writes_sub hostOps0 _ hostOps0_writes_sub h

/-- A buffer that no host operation writes and that is no array of either call ends as launched. -/
theorem W3_kept (c : Dev nD) (b : Ref sig .tc) (h : b ∉ hostWrites) (h0 : ∀ w, Pipeline.arrRef spec0 w ≠ b) (h1 : ∀ w, Pipeline.arrRef spec1 w ≠ b) :
    W3 m ρ c (Proc.devRef .tc b) = m ((c : Thread nD τ).loc b) :=
  (W3_of_ne m ρ c b h1).trans ((W2_of_ne m ρ c b h0).trans (W1_of m ρ c b h))

/-- The previous cell state is an input array of the second call: read, never written. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 1).trans (((dat1 (E1 m ρ) c).arrAt_in 1 rfl _).trans (A_eq1 (E1 m ρ) c 1))
    _ = W1 m ρ c (Proc.devRef .tc main_arg2) := W2_of_ne m ρ c main_arg2 (by decide)
    _ = m ((c : Thread nD τ).loc main_arg2) := W1_of m ρ c main_arg2 (by decide)

/-- The pre-activations the second call reads are the first call's output array after its last write-back. -/
theorem E1_main_v8 (c : Dev nD) : E1 m ρ c main_v8 = (dat0 (E0 m ρ) c).arrAt 5 cfg0.N := W2_arr m ρ c 5
/-- The previous cell state the second call reads is the launch's. -/
theorem E1_main_arg2 (c : Dev nD) : E1 m ρ c main_arg2 = m ((c : Thread nD τ).loc main_arg2) :=
  (W2_of_ne m ρ c main_arg2 (by decide)).trans (W1_of m ρ c main_arg2 (by decide))
/-- The two results are the second call's output arrays after its last write-back. -/
theorem W3_main_v9_0 (c : Dev nD) : W3 m ρ c (Proc.devRef .tc main_v9_0) = (dat1 (E1 m ρ) c).arrAt 2 cfg1.N := W3_arr m ρ c 2
theorem W3_main_v9_1 (c : Dev nD) : W3 m ρ c (Proc.devRef .tc main_v9_1) = (dat1 (E1 m ρ) c).arrAt 3 cfg1.N := W3_arr m ρ c 3

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W3_kept m ρ c main_arg0 (by decide) (by decide) (by decide)),
     (h c _ (mem_uc main_arg1 (by decide))).trans (W3_kept m ρ c main_arg1 (by decide) (by decide) (by decide)),
     (h c _ (mem_uc main_arg2 (by decide))).trans (W3_main_arg2 m ρ c),
     (h c _ (mem_uc main_arg3 (by decide))).trans (W3_kept m ρ c main_arg3 (by decide) (by decide) (by decide)),
     (h c _ (mem_uc main_arg4 (by decide))).trans (W3_kept m ρ c main_arg4 (by decide) (by decide) (by decide)),
     (h c _ (mem_uc main_arg5 (by decide))).trans (W3_kept m ρ c main_arg5 (by decide) (by decide) (by decide)),
     (h c _ (mem_uc main_arg6 (by decide))).trans (W3_kept m ρ c main_arg6 (by decide) (by decide) (by decide)),
     (h c _ (mem_uc main_arg7 (by decide))).trans (W3_kept m ρ c main_arg7 (by decide) (by decide) (by decide)),
     (h c _ (mem_uc main_arg8 (by decide))).trans (W3_kept m ρ c main_arg8 (by decide) (by decide) (by decide)),
     (h c _ (mem_uc main_arg9 (by decide))).trans (W3_kept m ρ c main_arg9 (by decide) (by decide) (by decide)),
     (h c _ (mem_uc main_arg10 (by decide))).trans (W3_kept m ρ c main_arg10 (by decide) (by decide) (by decide)),
     (h c _ (mem_uc main_arg11 (by decide))).trans (W3_kept m ρ c main_arg11 (by decide) (by decide) (by decide)),
     (h c _ (mem_uc main_arg12 (by decide))).trans (W3_kept m ρ c main_arg12 (by decide) (by decide) (by decide)),
     (h c _ (mem_uc main_arg13 (by decide))).trans (W3_kept m ρ c main_arg13 (by decide) (by decide) (by decide)),
     (h c _ (mem_uc main_arg14 (by decide))).trans (W3_kept m ρ c main_arg14 (by decide) (by decide) (by decide))⟩)
    (run_all m ρ)

end Cert.Kernel.Fr

end
-- ==== Proof.Spec.lean ====
/-
  What an LSTM cell computes, index by index, over the extended reals.

  Inputs: a batch of rows `x` and the previous hidden state `h` (8192 rows of 2048 features), the previous cell
  state `c0`, the four gates' input and recurrent weights laid side by side (`wi`, `wh`: 2048 rows, column
  `q = 2048 * gate + unit`), and their biases side by side (`b`).
  The gate pre-activation at row `r`, gate column `q` is
      (∑ₖ x r k · wi k q) + (∑ₖ h r k · wh k q) + b q,
  the gates in the order input, forget, candidate, output. With σ the logistic function,
      c r j = σ(pre r (2048 + j)) · c0 r j + σ(pre r j) · tanh(pre r (4096 + j)),
      h' r j = σ(pre r (6144 + j)) · tanh(c r j).
  No law of the extended reals is needed to state these: the sums are left as written (row times column, the
  input product first), so a program that computes them block by block meets this term literally.
-/
import Idealize.ShloMosaic.PureOps.Ideal
import Idealize.ShloMosaic.Lib.ValueIdx

noncomputable section

namespace Cert.Spec

open Idealize.ShloMosaic Idealize.ShloMosaic.ValueIdx
open scoped BigOperators

/-- Batch rows by features (or hidden units). -/
abbrev Rows : Shape := ⟨2, ![8192, 2048]⟩
/-- Features by gate columns: the four gates' weight matrices side by side. -/
abbrev Wts : Shape := ⟨2, ![2048, 8192]⟩
/-- The four gates' biases, one after the other. -/
abbrev Bias : Shape := ⟨1, ![8192]⟩
/-- Batch rows by gate columns: the four gates' pre-activations side by side. -/
abbrev Gates : Shape := ⟨2, ![8192, 8192]⟩

/-- The gate pre-activation at batch row `r` and gate column `q`. -/
def gateAt (x h : Rows.Idx → EReal) (wi wh : Wts.Idx → EReal) (b : Bias.Idx → EReal) (r q : Fin 8192) : EReal :=
  ((∑ k : Fin 2048, x (ix2 r k) * wi (ix2 k q)) + ∑ k : Fin 2048, h (ix2 r k) * wh (ix2 k q)) + b (ix1 q)

/-- All gate pre-activations as one array. -/
def gates (x h : Rows.Idx → EReal) (wi wh : Wts.Idx → EReal) (b : Bias.Idx → EReal) : Gates.Idx → EReal :=
  fun i => gateAt x h wi wh b (i 0) (i 1)

/-- The new cell state at row `r`, unit `j`, from the pre-activations `g` and the previous cell state `c0`:
    forget gate times the old cell plus input gate times the candidate. -/
def cellAt (g : Gates.Idx → EReal) (c0 : Rows.Idx → EReal) (r : Fin 8192) (j : Fin 2048) : EReal :=
  Ideal.logistic (g (ix2 r (⟨2048 + j.val, by omega⟩ : Fin 8192))) * c0 (ix2 r j)
    + Ideal.logistic (g (ix2 r (⟨j.val, by omega⟩ : Fin 8192))) * Ideal.tanh (g (ix2 r (⟨4096 + j.val, by omega⟩ : Fin 8192)))

/-- The new hidden state at row `r`, unit `j`: output gate times tanh of the new cell state. -/
def hidAt (g : Gates.Idx → EReal) (c0 : Rows.Idx → EReal) (r : Fin 8192) (j : Fin 2048) : EReal :=
  Ideal.logistic (g (ix2 r (⟨6144 + j.val, by omega⟩ : Fin 8192))) * Ideal.tanh (cellAt g c0 r j)

/-- The new cell state as an array. -/
def cell (g : Gates.Idx → EReal) (c0 : Rows.Idx → EReal) : Rows.Idx → EReal := fun i => cellAt g c0 (i 0) (i 1)

/-- The new hidden state as an array. -/
def hid (g : Gates.Idx → EReal) (c0 : Rows.Idx → EReal) : Rows.Idx → EReal := fun i => hidAt g c0 (i 0) (i 1)

end Cert.Spec

end
-- ==== Proof.KI.Data0.lean ====
/-
  The first pallas_call (the fused gate matmul with bias), as the pipeline sees it: at grid point `t = (i, j)`
  (4 row tiles by 32 column tiles) the body reads row tile `i` of the two activations (2048 by 2048), column tile `j`
  of the two weight matrices (2048 by 256) and of the bias row (1 by 256), and stores one 2048 by 256 tile of
  pre-activations, which the pipeline writes back as block `(i, j)` of the output array.
  Here: each window's block at a point read off the arrays as the region finds them, what the body leaves in the
  output window's buffer as a function of the input blocks, and the pipeline's proof data over these.
-/
import proofs.«131399_j20074677141565_1_alg».proof.Proof.Gen.KernelIdeal.Launch
import proofs.«131399_j20074677141565_1_alg».proof.Proof.Gen.KernelIdeal.Skeleton
import proofs.«131399_j20074677141565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of an activation tile, of a weight or output tile, and of a bias tile: the rectangles the body's loads and
    its one store go through. -/
abbrev rAct0 : Rect S2048x2048 := Rect.unit (s := S2048x2048) ![0, 0] S2048x2048.size inb_S2048x2048_S2048x2048_0_0
abbrev rCol0 : Rect S2048x256 := Rect.unit (s := S2048x256) ![0, 0] S2048x256.size inb_S2048x256_S2048x256_0_0
abbrev rBias0 : Rect S1x256 := Rect.unit (s := S1x256) ![0, 0] S1x256.size inb_S1x256_S1x256_0_0

/-- The output window's buffer after the body, from the five input blocks: its one store, of the body's arithmetic. -/
def out0_5 (x0 x1 : Vec F S2048x2048 .bf16) (x2 x3 : Vec F S2048x256 .bf16) (x4 : Vec F S1x256 .f32) : Vec F S2048x256 .f32 :=
  View.canon [⟨rCol0, k0_pay1 (View.ld x0 rAct0) (View.ld x1 rAct0) (View.ld x2 rCol0) (View.ld x3 rCol0) (View.ld x4 rBias0)⟩]

/-- The proof data of the first pipeline on core `c`: the arrays as the region finds them; after the body at point `t`
    each input's buffer still at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

end Cert.KernelIdeal.Fr

end
-- ==== Proof.KI.Body0.lean ====
/-
  The first pallas_call's body, at every grid point: run on the six windows' current staging memrefs, the five inputs'
  holding their blocks (fetched at this point or carried from the point before, the block index not having moved) and
  the output's holding anything, it loads the five blocks whole, loads the output buffer (a value nothing reads), and
  stores the sum of the two products and the broadcast bias row over the whole output buffer. So the inputs' buffers are
  left as found and the output's holds `out0_5` of the input blocks: the pipeline's body obligation for `dat0`.
-/
import proofs.«131399_j20074677141565_1_alg».proof.Proof.KI.Data0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the input windows' buffers -/

/-- Input window 0 (the row tile of the first activation) holds its block at every point, fetched there or not, for any proof
    data whose array is the region-entry contents and whose body leaves the block in place: where the pipeline does not
    fetch, the block index has not moved, so the block carried over is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the row tile of the second activation) holds its block at every point, fetched there or not, for any proof
    data whose array is the region-entry contents and whose body leaves the block in place: where the pipeline does not
    fetch, the block index has not moved, so the block carried over is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the column tile of the first weight matrix) holds its block at every point, fetched there or not, for any proof
    data whose array is the region-entry contents and whose body leaves the block in place: where the pipeline does not
    fetch, the block index has not moved, so the block carried over is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the column tile of the second weight matrix) holds its block at every point, fetched there or not, for any proof
    data whose array is the region-entry contents and whose body leaves the block in place: where the pipeline does not
    fetch, the block index has not moved, so the block carried over is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the column tile of the bias row) holds its block at every point, fetched there or not, for any proof
    data whose array is the region-entry contents and whose body leaves the block in place: where the pipeline does not
    fetch, the block index has not moved, so the block carried over is this point's. The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The output window's one store covers its buffer -/

/-- The one store goes through the whole tile, so every index of the output buffer is written. -/
theorem cover0_5 (p0 : Vec F S2048x256 .f32) (y : S2048x256.Idx) :
    ∃ pc ∈ ([⟨rCol0, p0⟩] : List (View.Piece (Elt F) S2048x256 .f32)), y ∈ pc.1.set :=
  View.cover_of_tiled [⟨rCol0, p0⟩] S2048x256.size (by rfl) y

/-! ## The body's triple -/

set_option maxHeartbeats 1000000 in
/-- The kernel body on whole staging memrefs, the five inputs' at read contents `x0 … x4` and the output's at anything,
    runs to the continuation holding the inputs' as they were and the output's at `out0_5 x0 x1 x2 x3 x4`: the printed
    function is its skeleton of six loads and one store, run statement by statement; what the output's memref reads
    after the store is the store's payload, the store covering the buffer. -/
theorem sound_kernel0 (c : Dev nD) (E : Set ℕ) (i : grid0.Coords)
    (arg2 : Memref sig .tc .vmem S2048x2048 .bf16) (harg2 : arg2.IsWhole) (arg3 : Memref sig .tc .vmem S2048x2048 .bf16) (harg3 : arg3.IsWhole)
    (arg4 : Memref sig .tc .vmem S2048x256 .bf16) (harg4 : arg4.IsWhole) (arg5 : Memref sig .tc .vmem S2048x256 .bf16) (harg5 : arg5.IsWhole)
    (arg6 : Memref sig .tc .vmem S1x256 .f32) (harg6 : arg6.IsWhole) (arg7 : Memref sig .tc .vmem S2048x256 .f32) (harg7 : arg7.IsWhole)
    (x0 x1 : Vec F S2048x2048 .bf16) (x2 x3 : Vec F S2048x256 .bf16) (x4 : Vec F S1x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__matmul_bias_kernel i arg2 harg2 arg3 harg3 arg4 harg4 arg5 harg5 arg6 harg6 arg7 harg7) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The inputs' buffers under the proof data -/

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, what the core owes, and the six windows' current staging
    memrefs one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies at the blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Data1.lean ====
/-
  The second pallas_call (the gates and the cell update), as the pipeline sees it: at grid point `t` (32 row tiles)
  the body reads 256 rows of the pre-activations (all 8192 gate columns) and the same 256 rows of the previous cell
  state, and stores 256 rows of the new cell state and of the new hidden state, which the pipeline writes back as
  row block `t` of the two output arrays.
  Here: each window's block at a point read off the arrays as the region finds them, what the body leaves in the two
  output windows' buffers as functions of the input blocks, and the pipeline's proof data over these.
-/
import proofs.«131399_j20074677141565_1_alg».proof.Proof.Gen.KernelIdeal.Launch
import proofs.«131399_j20074677141565_1_alg».proof.Proof.Gen.KernelIdeal.Skeleton
import proofs.«131399_j20074677141565_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a pre-activation tile and of a state tile: the rectangles the body's loads and stores go through. -/
abbrev rGate1 : Rect S256x8192 := Rect.unit (s := S256x8192) ![0, 0] S256x8192.size inb_S256x8192_S256x8192_0_0
abbrev rState1 : Rect S256x2048 := Rect.unit (s := S256x2048) ![0, 0] S256x2048.size inb_S256x2048_S256x2048_0_0

/-- The new cell state's buffer after the body, from the two input blocks. -/
def out1_2 (x0 : Vec F S256x8192 .f32) (x1 : Vec F S256x2048 .f32) : Vec F S256x2048 .f32 :=
  View.canon [⟨rState1, k1_pay2 (View.ld x0 rGate1) (View.ld x1 rState1)⟩]

/-- The new hidden state's buffer after the body, from the two input blocks. -/
def out1_3 (x0 : Vec F S256x8192 .f32) (x1 : Vec F S256x2048 .f32) : Vec F S256x2048 .f32 :=
  View.canon [⟨rState1, k1_pay3 (View.ld x0 rGate1) (View.ld x1 rState1)⟩]

/-- The proof data of the second pipeline on core `c`: the arrays as the region finds them; after the body at point
    `t` each input's buffer still at its block and each output's at its function of the input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

end Cert.KernelIdeal.Fr

end
-- ==== Proof.KI.Body1.lean ====
/-
  The second pallas_call's body, point by point: at grid point `t` the two input windows' buffers hold their blocks
  (both are fetched at every point), so the body, run on the four windows' current buffers, loads the pre-activation
  tile and the previous cell-state tile whole, and stores the new cell state and the new hidden state whole; each
  output buffer ends as the one store's payload laid over the whole tile, whatever it held before.
  Here: the inputs' buffers before the body, the stores covering the output tiles, the body's triple, and the
  pipeline's body obligation for the proof data `dat1`.
-/
import proofs.«131399_j20074677141565_1_alg».proof.Proof.KI.Data1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' buffers before the body -/

/-- The pre-activation window's current buffer holds its block at every point, for any proof data whose array is the
    region-entry contents and whose body leaves the block in place: the window is fetched at every point it moves,
    is never cut and never idle. -/
theorem before1_gate_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The previous cell state's window likewise. -/
theorem before1_state_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_gate (c : Dev nD) (t : Fin cfg1.N) (d) : (dat1 V c).before 0 t d = iblk1 V c 0 t :=
  before1_gate_of V (dat1 V c) (A_eq1 V c 0) (after1_0 V c) t d

theorem before1_state (c : Dev nD) (t : Fin cfg1.N) (d) : (dat1 V c).before 1 t d = iblk1 V c 1 t :=
  before1_state_of V (dat1 V c) (A_eq1 V c 1) (after1_1 V c) t d

/-! ## The one store of each output covers its tile -/

theorem cover1_state (p0 : Vec F S256x2048 .f32) (y : S256x2048.Idx) :
    ∃ pc ∈ ([⟨rState1, p0⟩] : List (View.Piece (Elt F) S256x2048 .f32)), y ∈ pc.1.set :=
  View.cover_of_tiled [⟨rState1, p0⟩] S256x2048.size (by rfl) y

/-! ## The body's triple -/

set_option maxHeartbeats 1000000 in
/-- The kernel body on whole buffers, the two inputs' at read contents `x0`, `x1` and the two outputs' at anything,
    runs to the continuation holding the inputs' as they were and each output's at its function of the inputs': the
    printed function is its skeleton of loads and stores, run operation by operation; each output is loaded once
    (the value is not used) and then stored whole, and the one store covers the tile. -/
theorem sound_kernel1 (c : Dev nD) (E : Set ℕ) (i : grid1.Coords)
    (arg1 : Memref sig .tc .vmem S256x8192 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (x0 : Vec F S256x8192 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__gate_combine_kernel i arg1 harg1 arg2 harg2 arg3 harg3 arg4 harg4) K := by
  simp only [cc1__gate_combine_kernel_eq_skeleton]; unfold cc1__gate_combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_state _)
  iexists _; isplitr
  swap; · iexact H3
  ipureintro
  exact View.read_writes_eq_canon _ _ _ (cover1_state _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_gate, before1_state]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Whole.lean ====
/-
  The whole run of the program: one stretch of host operations (the weight and bias concatenations, the casts of the
  matmul operands, the bias reshaped to a row), then the two pallas_calls one after the other.
  The buffer contents at each boundary are a fold from the launch memory: after the host stretch (`W1`), after the
  first call, whose output array holds what its write-backs leave and every other buffer what it held (`W2`), and the
  same after the second call (`W3`). Each call is a segment whose proof data sit at its entry contents; the launch over
  the three segments gives: every weakly fair execution terminates, and every unscoped buffer ends at `W3`.
  Read off `W3`: no argument array is written (the host stretch writes only its own results, the first call only the
  pre-activations, the second only its two results), and the two results are the second call's output arrays after its
  last write-back.
-/
import proofs.«131399_j20074677141565_1_alg».proof.Proof.KI.Body0
import proofs.«131399_j20074677141565_1_alg».proof.Proof.KI.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch: the first call's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the second call's entry. -/
abbrev E1 : (c : Dev nD) → (b : Ref sig .tc) → Buf (Elt F) ((c : Thread nD τ).loc b) := fun c b => W2 m ρ c b
theorem exit0_arr (c : Dev nD) (w : Fin cfg0.W) : (dat0 (E0 m ρ) c).arrAt w cfg0.N = E1 m ρ c (Pipeline.arrRef spec0 w) :=
  (W2_arr m ρ c w).symm
theorem exit0_rest (c : Dev nD) : ∀ b, b ∉ Finset.univ.image (Pipeline.arrRef spec0) → E1 m ρ c b = E0 m ρ c b :=
  fun b hb => W2_of_ne m ρ c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 m ρ c) fun w => (dat1 (E1 m ρ) c).arrAt w cfg1.N
theorem W3_arr (c : Dev nD) (w : Fin cfg1.W) :
    W3 m ρ c (Proc.devRef .tc (Pipeline.arrRef spec1 w)) = (dat1 (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E2 : (c : Dev nD) → (b : Ref sig .tc) → Buf (Elt F) ((c : Thread nD τ).loc b) := fun c b => W3 m ρ c b
theorem exit1_arr (c : Dev nD) (w : Fin cfg1.W) : (dat1 (E1 m ρ) c).arrAt w cfg1.N = E2 m ρ c (Pipeline.arrRef spec1 w) :=
  (W3_arr m ρ c w).symm
theorem exit1_rest (c : Dev nD) : ∀ b, b ∉ Finset.univ.image (Pipeline.arrRef spec1) → E2 m ρ c b = E1 m ρ c b :=
  fun b hb => W3_of_ne m ρ c b fun w e => hb (Finset.mem_image.mpr ⟨w, Finset.mem_univ _, e⟩)

/-! ## The proof data family and the thread state -/

/-- No pipeline has a prefetched table. -/
abbrev noTables : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_noalloc : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The two calls as segments -/

set_option backward.isDefEq.respectTransparency.types false in
/-- The first call: entered from every unscoped buffer at `W1`, left at `W2`. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev items : List (Pipeline.Seg (pcfgs (F := F)) noTables (pdats m ρ) () defs₀ 𝒱₀ L lv) :=
  [ .host (hseg hostOps0 hostOps0_sub hostOps0_noalloc (W0 m ρ)),
    .region (reg0 m ρ),
    .region (reg1 m ρ) ]
/-- The program IS the run of the segments. -/
theorem main_run (c : Dev nD) : main (F := F) c = Pipeline.Seg.run (items m ρ) := (main_chain c).trans (by chain_rfl)

set_option backward.isDefEq.respectTransparency.types false in
/-- THE RUN: from any memory with zero counters every weakly fair execution terminates, nothing faulting, and every
    unscoped buffer of every core ends holding `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-! ## What `W3` holds at the arguments and at the results -/

/-- The references the host stretch writes. -/
abbrev hostWrites : List (Ref sig .tc) := [main_v0, main_v1, main_v2, main_v3, main_v4, main_v5, main_v6, main_v7]
theorem hostOps0_writes_sub : (hostOps0 : List (HloOp τ sig (Elt F))).Forall fun op => op.writes ⊆ (hostWrites.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.reshape_writes, StableHlo.nary_writes, Finset.singleton_subset_iff, List.mem_toFinset]; exact List.mem_map_of_mem (by decide))

/-- A buffer the host stretch does not write holds its launch contents after it. -/
theorem W1_of (c : Dev nD) (b : Ref sig .tc) (h : b ∉ hostWrites) : W1 m ρ c (Proc.devRef .tc b) = m ((c : Thread nD τ).loc b) :=
  StableHlo.after_of_writes_sub hostOps0 _ hostOps0_writes_sub h

/-- A buffer that no host operation writes and that is no array of either call ends as launched. -/
theorem W3_kept (c : Dev nD) (b : Ref sig .tc) (h : b ∉ hostWrites) (h0 : ∀ w, Pipeline.arrRef spec0 w ≠ b) (h1 : ∀ w, Pipeline.arrRef spec1 w ≠ b) :
    W3 m ρ c (Proc.devRef .tc b) = m ((c : Thread nD τ).loc b) :=
  (W3_of_ne m ρ c b h1).trans ((W2_of_ne m ρ c b h0).trans (W1_of m ρ c b h))

/-- The previous cell state is an input array of the second call: read, never written. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := (W3_arr m ρ c 1).trans (((dat1 (E1 m ρ) c).arrAt_in 1 rfl _).trans (A_eq1 (E1 m ρ) c 1))
    _ = W1 m ρ c (Proc.devRef .tc main_arg2) := W2_of_ne m ρ c main_arg2 (by decide)
    _ = m ((c : Thread nD τ).loc main_arg2) := W1_of m ρ c main_arg2 (by decide)

/-- The pre-activations the second call reads are the first call's output array after its last write-back. -/
theorem E1_main_v8 (c : Dev nD) : E1 m ρ c main_v8 = (dat0 (E0 m ρ) c).arrAt 5 cfg0.N := W2_arr m ρ c 5
/-- The previous cell state the second call reads is the launch's. -/
theorem E1_main_arg2 (c : Dev nD) : E1 m ρ c main_arg2 = m ((c : Thread nD τ).loc main_arg2) :=
  (W2_of_ne m ρ c main_arg2 (by decide)).trans (W1_of m ρ c main_arg2 (by decide))
/-- The two results are the second call's output arrays after its last write-back. -/
theorem W3_main_v9_0 (c : Dev nD) : W3 m ρ c (Proc.devRef .tc main_v9_0) = (dat1 (E1 m ρ) c).arrAt 2 cfg1.N := W3_arr m ρ c 2
theorem W3_main_v9_1 (c : Dev nD) : W3 m ρ c (Proc.devRef .tc main_v9_1) = (dat1 (E1 m ρ) c).arrAt 3 cfg1.N := W3_arr m ρ c 3

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W3_kept m ρ c main_arg0 (by decide) (by decide) (by decide)),
     (h c _ (mem_uc main_arg1 (by decide))).trans (W3_kept m ρ c main_arg1 (by decide) (by decide) (by decide)),
     (h c _ (mem_uc main_arg2 (by decide))).trans (W3_main_arg2 m ρ c),
     (h c _ (mem_uc main_arg3 (by decide))).trans (W3_kept m ρ c main_arg3 (by decide) (by decide) (by decide)),
     (h c _ (mem_uc main_arg4 (by decide))).trans (W3_kept m ρ c main_arg4 (by decide) (by decide) (by decide)),
     (h c _ (mem_uc main_arg5 (by decide))).trans (W3_kept m ρ c main_arg5 (by decide) (by decide) (by decide)),
     (h c _ (mem_uc main_arg6 (by decide))).trans (W3_kept m ρ c main_arg6 (by decide) (by decide) (by decide)),
     (h c _ (mem_uc main_arg7 (by decide))).trans (W3_kept m ρ c main_arg7 (by decide) (by decide) (by decide)),
     (h c _ (mem_uc main_arg8 (by decide))).trans (W3_kept m ρ c main_arg8 (by decide) (by decide) (by decide)),
     (h c _ (mem_uc main_arg9 (by decide))).trans (W3_kept m ρ c main_arg9 (by decide) (by decide) (by decide)),
     (h c _ (mem_uc main_arg10 (by decide))).trans (W3_kept m ρ c main_arg10 (by decide) (by decide) (by decide)),
     (h c _ (mem_uc main_arg11 (by decide))).trans (W3_kept m ρ c main_arg11 (by decide) (by decide) (by decide)),
     (h c _ (mem_uc main_arg12 (by decide))).trans (W3_kept m ρ c main_arg12 (by decide) (by decide) (by decide)),
     (h c _ (mem_uc main_arg13 (by decide))).trans (W3_kept m ρ c main_arg13 (by decide) (by decide) (by decide)),
     (h c _ (mem_uc main_arg14 (by decide))).trans (W3_kept m ρ c main_arg14 (by decide) (by decide) (by decide))⟩)
    (run_all m ρ)

end Cert.KernelIdeal.Fr

end
-- ==== Proof.KI.Host.lean ====
/-
  What the host stretch before the two pallas_calls leaves in the buffers the first call reads, over the extended reals:
  a cast to a narrower float format is the identity there, so the two activation operands are the arguments themselves,
  the two weight operands are the four gates' matrices laid side by side, and the bias row is the four bias vectors one
  after the other, seen as a matrix of one row.
-/
import proofs.«131399_j20074677141565_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The launch contents of core `c` as a valuation. -/
abbrev atLaunch (c : Dev nD) : Valuation τ sig (Elt Ideal) := fun b => m ((c : Dev nD), b)

/-- The four gates' input weights side by side. -/
abbrev wi (c : Dev nD) : S2048x8192.Idx → EReal :=
  concatenate S2048x8192 1 [⟨S2048x2048, m ((c.tc : Thread nD τ).loc main_arg3)⟩, ⟨S2048x2048, m ((c.tc : Thread nD τ).loc main_arg4)⟩, ⟨S2048x2048, m ((c.tc : Thread nD τ).loc main_arg5)⟩, ⟨S2048x2048, m ((c.tc : Thread nD τ).loc main_arg6)⟩] Facts₀.concatenates_S2048x2048_S2048x2048_S2048x2048_S2048x2048_S2048x8192_d1
/-- The four gates' recurrent weights side by side. -/
abbrev wh (c : Dev nD) : S2048x8192.Idx → EReal :=
  concatenate S2048x8192 1 [⟨S2048x2048, m ((c.tc : Thread nD τ).loc main_arg7)⟩, ⟨S2048x2048, m ((c.tc : Thread nD τ).loc main_arg8)⟩, ⟨S2048x2048, m ((c.tc : Thread nD τ).loc main_arg9)⟩, ⟨S2048x2048, m ((c.tc : Thread nD τ).loc main_arg10)⟩] Facts₀.concatenates_S2048x2048_S2048x2048_S2048x2048_S2048x2048_S2048x8192_d1
/-- The four gates' biases one after the other. -/
abbrev bs (c : Dev nD) : S8192.Idx → EReal :=
  concatenate S8192 0 [⟨S2048, m ((c.tc : Thread nD τ).loc main_arg11)⟩, ⟨S2048, m ((c.tc : Thread nD τ).loc main_arg12)⟩, ⟨S2048, m ((c.tc : Thread nD τ).loc main_arg13)⟩, ⟨S2048, m ((c.tc : Thread nD τ).loc main_arg14)⟩] Facts₀.concatenates_S2048_S2048_S2048_S2048_S8192_d0

/-- The first call's activation operand is the input argument. -/
theorem host_x (c : Dev nD) : (after (hostOps0 (F := Ideal)) (atLaunch m c) (Proc.devRef .tc main_v6) : S8192x2048.Idx → EReal) = m ((c.tc : Thread nD τ).loc main_arg0) := by
  after_results; rfl
/-- Its recurrent operand is the hidden-state argument. -/
theorem host_h (c : Dev nD) : (after (hostOps0 (F := Ideal)) (atLaunch m c) (Proc.devRef .tc main_v7) : S8192x2048.Idx → EReal) = m ((c.tc : Thread nD τ).loc main_arg1) := by
  after_results; rfl
/-- Its input-weight operand is the four input-weight matrices side by side. -/
theorem host_wi (c : Dev nD) : (after (hostOps0 (F := Ideal)) (atLaunch m c) (Proc.devRef .tc main_v1) : S2048x8192.Idx → EReal) = wi m c := by
  after_results; rfl
/-- Its recurrent-weight operand is the four recurrent-weight matrices side by side. -/
theorem host_wh (c : Dev nD) : (after (hostOps0 (F := Ideal)) (atLaunch m c) (Proc.devRef .tc main_v3) : S2048x8192.Idx → EReal) = wh m c := by
  after_results; rfl
/-- Its bias operand is the concatenated bias seen as a matrix of one row. -/
theorem host_b_row (c : Dev nD) : (after (hostOps0 (F := Ideal)) (atLaunch m c) (Proc.devRef .tc main_v5) : S1x8192.Idx → EReal) = shapeCast S1x8192 (bs m c) Facts₀.shapeCasts_S8192_S1x8192 := by
  after_results; rfl

/-- The bias row at column `q` is the concatenated bias at `q`. -/
theorem host_b (c : Dev nD) (q : Fin 8192) :
    (after (hostOps0 (F := Ideal)) (atLaunch m c) (Proc.devRef .tc main_v5) : S1x8192.Idx → EReal) (ix2 (0 : Fin 1) q) = bs m c (ix1 q) := by
  rw [host_b_row]; exact shapeCast_a_1a_apply _ _ 0 q

end Cert.KernelIdeal.Val

end
-- ==== Proof.KI.Value0.lean ====
/-
  The fused gate product with bias, read as mathematics: the array it leaves is the specification's gate
  pre-activations of the arrays it found.

  One tile of the body: row tile of the input activations times column tile of the input weights, plus row tile of
  the hidden state times column tile of the recurrent weights, plus the bias tile's one row — at an element, the two
  sums over the 2048 features and the bias. Tile (i, j) of the grid reads rows 2048 i … of the activations and columns
  256 j … of the weights and bias, so what it writes back is block (i, j) of the specification's array; the 4 by 32
  tiles cover the 8192 by 8192 array, hence the array ends holding the specification everywhere.
-/
import proofs.«131399_j20074677141565_1_alg».proof.Proof.Spec
import proofs.«131399_j20074677141565_1_alg».proof.Proof.KI.Data0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open scoped BigOperators

/-! ## One tile of the body at an element -/

/-- The matmul's left operand index at output `(r, c)` and contraction position `k`: its row is `r` … -/
theorem lhs_tile_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
/-- … and its column is `k`; -/
theorem lhs_tile_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
/-- the right operand's row is `k` … -/
theorem rhs_tile_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
/-- … and its column is `c`. -/
theorem rhs_tile_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- A tile product into the zero accumulator, at row `p` and column `q`: the sum over the features of the left tile's
    row times the right tile's column. -/
theorem tile_matmul_apply (a : FVec Ideal S2048x2048 .bf16) (b : FVec Ideal S2048x256 .bf16) (p : Fin 2048) (q : Fin 256) :
    matmul dot_S2048x2048_S2048x256_S2048x256_1_0_0_1_n_n none a b (constant (F := Ideal) S2048x256 .f32 0x00000000#32) (ix2 p q)
      = ∑ k : Fin 2048, a (ix2 p k) * b (ix2 k q) := by
  show FloatOps.matmul dot_S2048x2048_S2048x256_S2048x256_1_0_0_1_n_n none a b (constant (F := Ideal) S2048x256 .f32 0x00000000#32) (ix2 p q) = _
  rw [Ideal.matmul_constant_zero_apply, ← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 p q) ((ValueIdx.contrEquiv1 dot_S2048x2048_S2048x256_S2048x256_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S2048x2048_S2048x256_S2048x256_1_0_0_1_n_n.rhsIdx (ix2 p q) ((ValueIdx.contrEquiv1 dot_S2048x2048_S2048x256_S2048x256_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]

/-- THE BODY'S TILE at row `p`, column `q`: the input product's sum, plus the recurrent product's, plus the bias row at `q`. -/
theorem tile_apply (x0 x1 : Vec Ideal S2048x2048 .bf16) (x2 x3 : Vec Ideal S2048x256 .bf16) (x4 : Vec Ideal S1x256 .f32)
    (p : Fin 2048) (q : Fin 256) :
    k0_pay1 (F := Ideal) x0 x1 x2 x3 x4 (ix2 p q)
      = ((∑ k : Fin 2048, x0 (ix2 p k) * x2 (ix2 k q)) + ∑ k : Fin 2048, x1 (ix2 p k) * x3 (ix2 k q)) + x4 (ix2 (0 : Fin 1) q) := by
  unfold k0_pay1
  simp only [shapeCast_self]
  rw [addf_apply, addf_apply, tile_matmul_apply, tile_matmul_apply, broadcastTo_1b_ab_apply]

/-! ## From the tiles to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the activations' row block is the output's and their column block
    is 0; the weights' and the bias's column block is the output's and their row block is 0; the output's block
    indices stay in the 4 by 32 grid. -/
theorem tile_index_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0
    ∧ win0_2.index t (1 : Fin 2) = win0_5.index t (1 : Fin 2)
    ∧ win0_3.index t (0 : Fin 2) = 0
    ∧ win0_3.index t (1 : Fin 2) = win0_5.index t (1 : Fin 2)
    ∧ win0_4.index t (0 : Fin 2) = 0
    ∧ win0_4.index t (1 : Fin 2) = win0_5.index t (1 : Fin 2)
    ∧ win0_5.index t (0 : Fin 2) ≤ 3 ∧ win0_5.index t (1 : Fin 2) ≤ 31 :=
  (by decide +kernel : ∀ t : Fin grid0.N, _)

/-- Every tile of the 4 by 32 grid is SOME point's. -/
theorem tile_index_onto : ∀ (q0 : Fin 4) (q1 : Fin 32), ∃ t : Fin cfg0.N, win0_5.index t = ![q0.val, q1.val] :=
  (by decide +kernel : ∀ (q0 : Fin 4) (q1 : Fin 32), ∃ t : Fin grid0.N, win0_5.index t = ![q0.val, q1.val])

/-- Tile arithmetic against the specification: if the five tiles read, along row `p` and column `q`, what the arrays hold
    along row `r` and column `s`, the tile's value there is the specification's gate pre-activation at `(r, s)`. -/
theorem gate_of_tiles (x h : Spec.Rows.Idx → EReal) (wi wh : Spec.Wts.Idx → EReal) (b : Spec.Bias.Idx → EReal)
    (x0 x1 : Vec Ideal S2048x2048 .bf16) (x2 x3 : Vec Ideal S2048x256 .bf16) (x4 : Vec Ideal S1x256 .f32)
    (p : Fin 2048) (q : Fin 256) (r s : Fin 8192)
    (h0 : ∀ k : Fin 2048, x0 (ix2 p k) = x (ix2 r k)) (h1 : ∀ k : Fin 2048, x1 (ix2 p k) = h (ix2 r k))
    (h2 : ∀ k : Fin 2048, x2 (ix2 k q) = wi (ix2 k s)) (h3 : ∀ k : Fin 2048, x3 (ix2 k q) = wh (ix2 k s))
    (h4 : x4 (ix2 (0 : Fin 1) q) = b (ix1 s)) :
    ((∑ k : Fin 2048, x0 (ix2 p k) * x2 (ix2 k q)) + ∑ k : Fin 2048, x1 (ix2 p k) * x3 (ix2 k q)) + x4 (ix2 (0 : Fin 1) q)
      = Spec.gateAt x h wi wh b r s := by
  unfold Spec.gateAt
  have hA : (∑ k : Fin 2048, x0 (ix2 p k) * x2 (ix2 k q)) = ∑ k : Fin 2048, x (ix2 r k) * wi (ix2 k s) :=
    Finset.sum_congr rfl fun k _ => by rw [h0 k, h2 k]
  have hB : (∑ k : Fin 2048, x1 (ix2 p k) * x3 (ix2 k q)) = ∑ k : Fin 2048, h (ix2 r k) * wh (ix2 k s) :=
    Finset.sum_congr rfl fun k _ => by rw [h1 k, h3 k]
  rw [hA, hB, h4]

/-- Each input block at point `t`, read where the output's block says: an activation block's row `p` is the array's row
    `r` = (the output's row block) × 2048 + `p`, all 2048 features; -/
theorem act_block_read (c : Dev nD) (t : Fin cfg0.N) (p k : Fin 2048) (r : Fin 8192)
    (hr : r.val = win0_5.index t (0 : Fin 2) * 2048 + 1 * p.val) :
    iblk0 V c 0 t (ix2 p k) = V c main_v6 (ix2 r k) := by
  obtain ⟨e0, e1, e2, e3, e4, e5, e6, e7, e8, e9, e10, e11⟩ := tile_index_facts t
  show V c main_v6 (((cfg0.win 0).blk t).view.emb (ix2 p k)) = V c main_v6 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 2048 + 1 * k.val = k.val; omega
/-- the same for the hidden state; -/
theorem hid_block_read (c : Dev nD) (t : Fin cfg0.N) (p k : Fin 2048) (r : Fin 8192)
    (hr : r.val = win0_5.index t (0 : Fin 2) * 2048 + 1 * p.val) :
    iblk0 V c 1 t (ix2 p k) = V c main_v7 (ix2 r k) := by
  obtain ⟨e0, e1, e2, e3, e4, e5, e6, e7, e8, e9, e10, e11⟩ := tile_index_facts t
  show V c main_v7 (((cfg0.win 1).blk t).view.emb (ix2 p k)) = V c main_v7 (ix2 r k)
  refine congrArg _ (funext fun a => Fin.ext ?_)
  match a with
  | ⟨0, _⟩ => show win0_1.index t (0 : Fin 2) * 2048 + 1 * p.val = r.val; omega
  | ⟨1, _⟩ => show win0_1.index t (1 : Fin 2) * 2048 + 1 * k.val = k.val; omega
/-- a weight block's column `q` is the array's column `s` = (the output's column block) × 256 + `q`, all 2048 features; -/
theorem wi_block_read (c : Dev nD) (t : Fin cfg0.N) (k : Fin 2048) (q : Fin 256) (s : Fin 8192)
    (hs : s.val = win0_5.index t (1 : Fin 2) * 256 + 1 * q.val) :
    iblk0 V c 2 t (ix2 k q) = V c main_v1 (ix2 k s) := by
  obtain ⟨e0, e1, e2, e3, e4, e5, e6, e7, e8, e9, e10, e11⟩ := tile_index_facts t
  show V c main_v1 (((cfg0.win 2).blk t).view.emb (ix2 k q)) = V c main_v1 (ix2 k s)
  refine congrArg _ (funext fun a => Fin.ext ?_)
  match a with
  | ⟨0, _⟩ => show win0_2.index t (0 : Fin 2) * 2048 + 1 * k.val = k.val; omega
  | ⟨1, _⟩ => show win0_2.index t (1 : Fin 2) * 256 + 1 * q.val = s.val; omega
/-- the same for the recurrent weights; -/
theorem wh_block_read (c : Dev nD) (t : Fin cfg0.N) (k : Fin 2048) (q : Fin 256) (s : Fin 8192)
    (hs : s.val = win0_5.index t (1 : Fin 2) * 256 + 1 * q.val) :
    iblk0 V c 3 t (ix2 k q) = V c main_v3 (ix2 k s) := by
  obtain ⟨e0, e1, e2, e3, e4, e5, e6, e7, e8, e9, e10, e11⟩ := tile_index_facts t
  show V c main_v3 (((cfg0.win 3).blk t).view.emb (ix2 k q)) = V c main_v3 (ix2 k s)
  refine congrArg _ (funext fun a => Fin.ext ?_)
  match a with
  | ⟨0, _⟩ => show win0_3.index t (0 : Fin 2) * 2048 + 1 * k.val = k.val; omega
  | ⟨1, _⟩ => show win0_3.index t (1 : Fin 2) * 256 + 1 * q.val = s.val; omega
/-- and the bias block's one row at `q` is the bias row at `s`. -/
theorem bias_block_read (c : Dev nD) (t : Fin cfg0.N) (q : Fin 256) (s : Fin 8192)
    (hs : s.val = win0_5.index t (1 : Fin 2) * 256 + 1 * q.val) :
    iblk0 V c 4 t (ix2 (0 : Fin 1) q) = V c main_v5 (ix2 (0 : Fin 1) s) := by
  obtain ⟨e0, e1, e2, e3, e4, e5, e6, e7, e8, e9, e10, e11⟩ := tile_index_facts t
  show V c main_v5 (((cfg0.win 4).blk t).view.emb (ix2 (0 : Fin 1) q)) = V c main_v5 (ix2 (0 : Fin 1) s)
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * q.val = s.val; omega

/-- WHAT POINT `t` WRITES BACK is block `t` of the specification's gate pre-activations of the arrays as the region finds them. -/
theorem flushed_gates (c : Dev nD) (t : Fin cfg0.N) :
    (dat0 (F := Ideal) V c).flushed 5 t = ((cfg0.win 5).blk t).view.read (Elt Ideal)
      (Spec.gates (V c main_v6) (V c main_v7) (V c main_v1) (V c main_v3) (fun q => V c main_v5 (ix2 (0 : Fin 1) (q 0)))) := by
  show (cfg0.win 5).cut (grid0.coords t) ((dat0 (F := Ideal) V c).after 5 t) = _
  rw [after0_5]
  unfold out0_5
  rw [View.canon_unit_zero zero_offsets]
  simp only [View.ld_unit_zero (S := S2048x2048) zero_offsets, View.ld_unit_zero (S := S2048x256) zero_offsets, View.ld_unit_zero (S := S1x256) zero_offsets]
  funext j
  have hj0 : (j 0).val < 2048 := (j 0).isLt
  have hj1 : (j 1).val < 256 := (j 1).isLt
  have hy : (cfg0.win 5).xinj (grid0.coords t) j = ix2 (⟨(j 0).val, hj0⟩ : Fin 2048) (⟨(j 1).val, hj1⟩ : Fin 256) := by
    funext a
    match a with
    | ⟨0, _⟩ => rfl
    | ⟨1, _⟩ => rfl
  show k0_pay1 (F := Ideal) (iblk0 V c 0 t) (iblk0 V c 1 t) (iblk0 V c 2 t) (iblk0 V c 3 t) (iblk0 V c 4 t) ((cfg0.win 5).xinj (grid0.coords t) j)
      = Spec.gateAt (V c main_v6) (V c main_v7) (V c main_v1) (V c main_v3) (fun q => V c main_v5 (ix2 (0 : Fin 1) (q 0)))
          (((cfg0.win 5).blk t).view.emb j 0) (((cfg0.win 5).blk t).view.emb j 1)
  rw [hy, tile_apply]
  exact gate_of_tiles _ _ _ _ _ _ _ _ _ _ _ _ _ _
    (fun k => act_block_read V c t _ k _ rfl) (fun k => hid_block_read V c t _ k _ rfl)
    (fun k => wi_block_read V c t k _ _ rfl) (fun k => wh_block_read V c t k _ _ rfl)
    (bias_block_read V c t _ _ rfl)

/-- An index of the array is in point `t`'s block iff each coordinate is in the block's range on its axis. -/
theorem mem_tile (t : Fin cfg0.N) (i : S8192x8192.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v8).slice (win0_5.rect t)).set ↔ _
  rw [View.set_slice_whole, Rect.mem_set_unit]
  exact Iff.rfl

/-- THE TILES COVER THE ARRAY: row `r`, column `s` is in the block of the point with row block `r / 2048` and column
    block `s / 256`, and every point writes back. -/
theorem tiles_cover (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := tile_index_onto ⟨(i 0).val / 2048, by omega⟩ ⟨(i 1).val / 256, by omega⟩
  have q0 : win0_5.index t (0 : Fin 2) = (i 0).val / 2048 := congrFun ht 0
  have q1 : win0_5.index t (1 : Fin 2) = (i 1).val / 256 := congrFun ht 1
  refine ⟨t, flush0_5 t, ?_⟩
  rw [mem_tile]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 256 ≤ (i 1).val ∧ (i 1).val < win0_5.index t (1 : Fin 2) * 256 + 256; omega

/-- THE ARRAY after the run: the specification's gate pre-activations of the activations, the hidden state, the two
    weight matrices and the bias row as the region finds them. -/
theorem gates_final (c : Dev nD) :
    (dat0 (F := Ideal) V c).arrAt 5 cfg0.N
      = Spec.gates (V c main_v6) (V c main_v7) (V c main_v1) (V c main_v3) (fun q => V c main_v5 (ix2 (0 : Fin 1) (q 0))) :=
  (dat0 (F := Ideal) V c).arrAt_eq_of_cover 5 _ (fun t _ => flushed_gates V c t) tiles_cover

end Cert.KernelIdeal.Val

end
-- ==== Proof.KI.Value1.lean ====
/-
  The second pallas_call's two output arrays, as functions of the arrays the region finds.

  At grid point `t` the body holds rows `256 t … 256 t + 255` of the gate pre-activations `g` (all 8192 gate columns) and
  of the previous cell state `c0`, and stores, at row `p` and unit `j` of its two output tiles,
      σ(g (2048 + j)) · c0 j + σ(g j) · tanh(g (4096 + j))      and      σ(g (6144 + j)) · tanh(that),
  the slices of the pre-activation tile being its column ranges `[0, 2048)`, `[2048, 4096)`, `[4096, 6144)`, `[6144, 8192)`.
  These are the specification's new cell state and new hidden state at row `256 t + p`, unit `j`. The 32 row tiles
  tile the `[8192, 2048]` arrays (row `r` lies in tile `r / 256`) and every point writes its tile back, so each output
  array ends as the specification's array, index by index.
-/
import proofs.«131399_j20074677141565_1_alg».proof.Proof.Spec
import proofs.«131399_j20074677141565_1_alg».proof.Proof.KI.Data1
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The body's two stored tiles at an index -/

/-- The new cell state's tile at row `p`, unit `j`: forget gate times the old cell plus input gate times the candidate,
    the gates read at columns `2048 + j`, `j`, `4096 + j` of the pre-activation tile. -/
theorem cell_tile_apply (x0 : Vec Ideal S256x8192 .f32) (x1 : Vec Ideal S256x2048 .f32) (p : Fin 256) (j : Fin 2048) :
    k1_pay2 x0 x1 (ix2 p j)
      = Ideal.logistic (x0 (ix2 p (⟨2048 + j.val, by omega⟩ : Fin 8192))) * x1 (ix2 p j)
        + Ideal.logistic (x0 (ix2 p (⟨j.val, by omega⟩ : Fin 8192))) * Ideal.tanh (x0 (ix2 p (⟨4096 + j.val, by omega⟩ : Fin 8192))) := by
  unfold k1_pay2 k1_pay1
  rw [shapeCast_self]
  have e0 : extractStridedSlice S256x2048 ![0, 0] x0 slices_S256x8192_o0_0_S256x2048 (ix2 p j) = x0 (ix2 p (⟨j.val, by omega⟩ : Fin 8192)) :=
    slice2_axis1_apply 0 x0 _ p j _ (Nat.zero_add _).symm
  have e1 : extractStridedSlice S256x2048 ![0, 2048] x0 slices_S256x8192_o0_2048_S256x2048 (ix2 p j) = x0 (ix2 p (⟨2048 + j.val, by omega⟩ : Fin 8192)) :=
    slice2_axis1_apply 2048 x0 _ p j _ rfl
  have e2 : extractStridedSlice S256x2048 ![0, 4096] x0 slices_S256x8192_o0_4096_S256x2048 (ix2 p j) = x0 (ix2 p (⟨4096 + j.val, by omega⟩ : Fin 8192)) :=
    slice2_axis1_apply 4096 x0 _ p j _ rfl
  show Ideal.logistic (extractStridedSlice S256x2048 ![0, 2048] x0 slices_S256x8192_o0_2048_S256x2048 (ix2 p j)) * x1 (ix2 p j)
      + Ideal.logistic (extractStridedSlice S256x2048 ![0, 0] x0 slices_S256x8192_o0_0_S256x2048 (ix2 p j))
        * Ideal.tanh (extractStridedSlice S256x2048 ![0, 4096] x0 slices_S256x8192_o0_4096_S256x2048 (ix2 p j)) = _
  rw [e0, e1, e2]

/-- The new hidden state's tile at row `p`, unit `j`: output gate (column `6144 + j`) times tanh of the new cell state there. -/
theorem hid_tile_apply (x0 : Vec Ideal S256x8192 .f32) (x1 : Vec Ideal S256x2048 .f32) (p : Fin 256) (j : Fin 2048) :
    k1_pay3 x0 x1 (ix2 p j)
      = Ideal.logistic (x0 (ix2 p (⟨6144 + j.val, by omega⟩ : Fin 8192))) * Ideal.tanh (k1_pay2 x0 x1 (ix2 p j)) := by
  unfold k1_pay3 k1_pay1
  rw [shapeCast_self]
  have e3 : extractStridedSlice S256x2048 ![0, 6144] x0 slices_S256x8192_o0_6144_S256x2048 (ix2 p j) = x0 (ix2 p (⟨6144 + j.val, by omega⟩ : Fin 8192)) :=
    slice2_axis1_apply 6144 x0 _ p j _ rfl
  show Ideal.logistic (extractStridedSlice S256x2048 ![0, 6144] x0 slices_S256x8192_o0_6144_S256x2048 (ix2 p j)) * Ideal.tanh (k1_pay2 x0 x1 (ix2 p j)) = _
  rw [e3]

/-- When the pre-activation tile is row `r`'s neighbourhood of `g` (its row `p` is row `r` of `g`, column by column) and the
    state tile at `(p, j)` is `c0` at `(r, j)`, the stored cell tile at `(p, j)` is the specification's cell state at `(r, j)`. -/
theorem cell_tile_spec (g : Spec.Gates.Idx → EReal) (c0 : Spec.Rows.Idx → EReal)
    (x0 : Vec Ideal S256x8192 .f32) (x1 : Vec Ideal S256x2048 .f32) (r : Fin 8192) (p : Fin 256) (j : Fin 2048)
    (hg : ∀ q : Fin 8192, x0 (ix2 p q) = g (ix2 r q)) (hc : x1 (ix2 p j) = c0 (ix2 r j)) :
    k1_pay2 x0 x1 (ix2 p j) = Spec.cellAt g c0 r j := by
  rw [cell_tile_apply, hg, hg, hg, hc]
  rfl

/-- Likewise the stored hidden tile is the specification's hidden state. -/
theorem hid_tile_spec (g : Spec.Gates.Idx → EReal) (c0 : Spec.Rows.Idx → EReal)
    (x0 : Vec Ideal S256x8192 .f32) (x1 : Vec Ideal S256x2048 .f32) (r : Fin 8192) (p : Fin 256) (j : Fin 2048)
    (hg : ∀ q : Fin 8192, x0 (ix2 p q) = g (ix2 r q)) (hc : x1 (ix2 p j) = c0 (ix2 r j)) :
    k1_pay3 x0 x1 (ix2 p j) = Spec.hidAt g c0 r j := by
  rw [hid_tile_apply, cell_tile_spec g c0 x0 x1 r p j hg hc, hg]
  rfl

/-! ## Where each window's block sits -/

theorem zero_off : (![0, 0] : Fin 2 → Nat) = fun _ => 0 := funext fun a => match a with | ⟨0, _⟩ => rfl | ⟨1, _⟩ => rfl

/-- The printed index maps, decided over the 32 grid points: all four windows have row block `t` and column block `0`. -/
theorem row_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 32 :=
  (by decide +kernel : ∀ t : Fin grid1.N, _)

/-- Every row tile is some point's. -/
theorem row_onto : ∀ q : Fin 32, ∃ t : Fin cfg1.N, t.val = q.val :=
  (by decide +kernel : ∀ q : Fin 32, ∃ t : Fin grid1.N, t.val = q.val)

/-- Row `p` of the pre-activation block at point `t` is row `256 t + p` of the array, column by column. -/
theorem gate_block_row (c : Dev nD) (t : Fin cfg1.N) (p : Fin 256) (r : Fin 8192) (hr : r.val = t.val * 256 + p.val) (q : Fin 8192) :
    iblk1 (F := Ideal) V c 0 t (ix2 p q) = (V c main_v8 : Spec.Gates.Idx → EReal) (ix2 r q) := by
  obtain ⟨e00, e01, -⟩ := row_blocks t
  show (V c main_v8 : Spec.Gates.Idx → EReal) (((cfg1.win 0).blk t).view.emb (ix2 p q)) = _
  refine congrArg _ (funext fun a => Fin.ext ?_)
  match a with
  | ⟨0, _⟩ => show win1_0.index t (0 : Fin 2) * 256 + 1 * p.val = r.val; omega
  | ⟨1, _⟩ => show win1_0.index t (1 : Fin 2) * 8192 + 1 * q.val = q.val; omega

/-- The previous cell state's block at point `t`, at `(p, j)`, is the array at `(256 t + p, j)`. -/
theorem state_block_at (c : Dev nD) (t : Fin cfg1.N) (p : Fin 256) (r : Fin 8192) (hr : r.val = t.val * 256 + p.val) (j : Fin 2048) :
    iblk1 (F := Ideal) V c 1 t (ix2 p j) = (V c main_arg2 : Spec.Rows.Idx → EReal) (ix2 r j) := by
  obtain ⟨-, -, e10, e11, -⟩ := row_blocks t
  show (V c main_arg2 : Spec.Rows.Idx → EReal) (((cfg1.win 1).blk t).view.emb (ix2 p j)) = _
  refine congrArg _ (funext fun a => Fin.ext ?_)
  match a with
  | ⟨0, _⟩ => show win1_1.index t (0 : Fin 2) * 256 + 1 * p.val = r.val; omega
  | ⟨1, _⟩ => show win1_1.index t (1 : Fin 2) * 2048 + 1 * j.val = j.val; omega

/-! ## What each point writes back -/

/-- Point `t` writes back block `t` of the specification's new cell state. -/
theorem cell_flushed (c : Dev nD) (t : Fin cfg1.N) :
    (dat1 (F := Ideal) V c).flushed 2 t
      = ((cfg1.win 2).blk t).view.read (Elt Ideal) (Spec.cell (V c main_v8) (V c main_arg2)) := by
  show (cfg1.win 2).cut (grid1.coords t) ((dat1 (F := Ideal) V c).after 2 t) = _
  rw [after1_2]
  unfold out1_2
  rw [View.canon_unit_zero zero_off]
  simp only [View.ld_unit_zero (S := S256x8192) zero_off, View.ld_unit_zero (S := S256x2048) zero_off]
  obtain ⟨-, -, -, -, e20, e21, -, -, ht⟩ := row_blocks t
  show k1_pay2 (iblk1 (F := Ideal) V c 0 t) (iblk1 (F := Ideal) V c 1 t)
      = fun j : S256x2048.Idx => Spec.cell (V c main_v8) (V c main_arg2) (((cfg1.win 2).blk t).view.emb j)
  funext j
  obtain ⟨p, q, rfl⟩ : ∃ (p : Fin 256) (q : Fin 2048), j = ix2 p q := ⟨j 0, j 1, eq_ix2 j⟩
  have hemb : ((cfg1.win 2).blk t).view.emb (ix2 p q) = ix2 (⟨t.val * 256 + p.val, by omega⟩ : Fin 8192) q := by
    funext a; apply Fin.ext
    match a with
    | ⟨0, _⟩ => show win1_2.index t (0 : Fin 2) * 256 + 1 * p.val = t.val * 256 + p.val; omega
    | ⟨1, _⟩ => show win1_2.index t (1 : Fin 2) * 2048 + 1 * q.val = q.val; omega
  refine Eq.trans ?_ (congrArg (Spec.cell (V c main_v8) (V c main_arg2)) hemb).symm
  exact cell_tile_spec _ _ _ _ ⟨t.val * 256 + p.val, by omega⟩ p q
    (fun k => gate_block_row V c t p _ rfl k) (state_block_at V c t p _ rfl q)

/-- Point `t` writes back block `t` of the specification's new hidden state. -/
theorem hid_flushed (c : Dev nD) (t : Fin cfg1.N) :
    (dat1 (F := Ideal) V c).flushed 3 t
      = ((cfg1.win 3).blk t).view.read (Elt Ideal) (Spec.hid (V c main_v8) (V c main_arg2)) := by
  show (cfg1.win 3).cut (grid1.coords t) ((dat1 (F := Ideal) V c).after 3 t) = _
  rw [after1_3]
  unfold out1_3
  rw [View.canon_unit_zero zero_off]
  simp only [View.ld_unit_zero (S := S256x8192) zero_off, View.ld_unit_zero (S := S256x2048) zero_off]
  obtain ⟨-, -, -, -, -, -, e30, e31, ht⟩ := row_blocks t
  show k1_pay3 (iblk1 (F := Ideal) V c 0 t) (iblk1 (F := Ideal) V c 1 t)
      = fun j : S256x2048.Idx => Spec.hid (V c main_v8) (V c main_arg2) (((cfg1.win 3).blk t).view.emb j)
  funext j
  obtain ⟨p, q, rfl⟩ : ∃ (p : Fin 256) (q : Fin 2048), j = ix2 p q := ⟨j 0, j 1, eq_ix2 j⟩
  have hemb : ((cfg1.win 3).blk t).view.emb (ix2 p q) = ix2 (⟨t.val * 256 + p.val, by omega⟩ : Fin 8192) q := by
    funext a; apply Fin.ext
    match a with
    | ⟨0, _⟩ => show win1_3.index t (0 : Fin 2) * 256 + 1 * p.val = t.val * 256 + p.val; omega
    | ⟨1, _⟩ => show win1_3.index t (1 : Fin 2) * 2048 + 1 * q.val = q.val; omega
  refine Eq.trans ?_ (congrArg (Spec.hid (V c main_v8) (V c main_arg2)) hemb).symm
  exact hid_tile_spec _ _ _ _ ⟨t.val * 256 + p.val, by omega⟩ p q
    (fun k => gate_block_row V c t p _ rfl k) (state_block_at V c t p _ rfl q)

/-! ## The row tiles cover the arrays -/

/-- An index of the new cell state's array is in point `t`'s block iff each coordinate is in the block's range on its axis. -/
theorem mem_cell_block (t : Fin cfg1.N) (i : S8192x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v9_0).slice (win1_2.rect t)).set ↔ _
  rw [View.set_slice_whole, Rect.mem_set_unit]
  exact Iff.rfl

theorem mem_hid_block (t : Fin cfg1.N) (i : S8192x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v9_1).slice (win1_3.rect t)).set ↔ _
  rw [View.set_slice_whole, Rect.mem_set_unit]
  exact Iff.rfl

/-- Row `r` of the new cell state's array lies in the block of point `r / 256`, which writes back. -/
theorem cell_cover (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := row_onto ⟨(i 0).val / 256, by omega⟩
  have ht' : t.val = (i 0).val / 256 := ht
  obtain ⟨-, -, -, -, e20, e21, -⟩ := row_blocks t
  refine ⟨t, flush1_2 t, ?_⟩
  rw [mem_cell_block]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

theorem hid_cover (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨t, ht⟩ := row_onto ⟨(i 0).val / 256, by omega⟩
  have ht' : t.val = (i 0).val / 256 := ht
  obtain ⟨-, -, -, -, -, -, e30, e31, -⟩ := row_blocks t
  refine ⟨t, flush1_3 t, ?_⟩
  rw [mem_hid_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 2048 ≤ (i 1).val ∧ (i 1).val < win1_3.index t (1 : Fin 2) * 2048 + 2048; omega

/-! ## The two output arrays after the region -/

/-- The new cell state's array ends as the specification's new cell state of the arrays the region found. -/
theorem cell_final (c : Dev nD) : (dat1 (F := Ideal) V c).arrAt 2 cfg1.N = Spec.cell (V c main_v8) (V c main_arg2) :=
  (dat1 (F := Ideal) V c).arrAt_eq_of_cover 2 (Spec.cell (V c main_v8) (V c main_arg2)) (fun t _ => cell_flushed V c t) cell_cover

/-- The new hidden state's array ends as the specification's new hidden state of the arrays the region found. -/
theorem hid_final (c : Dev nD) : (dat1 (F := Ideal) V c).arrAt 3 cfg1.N = Spec.hid (V c main_v8) (V c main_arg2) :=
  (dat1 (F := Ideal) V c).arrAt_eq_of_cover 3 (Spec.hid (V c main_v8) (V c main_arg2)) (fun t _ => hid_flushed V c t) hid_cover

end Cert.KernelIdeal.Val

end
-- ==== Proof.KI.Result.lean ====
/-
  The idealized program's two results as functions of its arguments, over the extended reals.
  The run leaves the new cell state and the new hidden state in the second call's two output arrays; those are the
  cell update of the pre-activations the second call found in its input array, which is the first call's output array:
  the gate pre-activations of the operands the host stretch prepared, which are the arguments themselves (a cast to a
  narrower format being the identity), the weights side by side and the biases one after the other.
-/
import proofs.«131399_j20074677141565_1_alg».proof.Proof.Spec
import proofs.«131399_j20074677141565_1_alg».proof.Proof.KI.Whole
import proofs.«131399_j20074677141565_1_alg».proof.Proof.KI.Host
import proofs.«131399_j20074677141565_1_alg».proof.Proof.KI.Value0
import proofs.«131399_j20074677141565_1_alg».proof.Proof.KI.Value1

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The specification's gate pre-activations of the arguments on core `c`. -/
abbrev gatesOf (c : Dev nD) : Spec.Gates.Idx → EReal :=
  Spec.gates (m ((c.tc : Thread nD τ).loc main_arg0)) (m ((c.tc : Thread nD τ).loc main_arg1)) (wi m c) (wh m c) (bs m c)

/-- What the second call finds in its pre-activation array: the gate pre-activations of the arguments. -/
theorem gates_result (c : Dev nD) : E1 (F := Ideal) m ρ c main_v8 = gatesOf m c := by
  rw [E1_main_v8, gates_final (E0 m ρ) c]
  have hx : (E0 (F := Ideal) m ρ c main_v6 : S8192x2048.Idx → EReal) = m ((c.tc : Thread nD τ).loc main_arg0) := host_x m c
  have hh : (E0 (F := Ideal) m ρ c main_v7 : S8192x2048.Idx → EReal) = m ((c.tc : Thread nD τ).loc main_arg1) := host_h m c
  have hwi : (E0 (F := Ideal) m ρ c main_v1 : S2048x8192.Idx → EReal) = wi m c := host_wi m c
  have hwh : (E0 (F := Ideal) m ρ c main_v3 : S2048x8192.Idx → EReal) = wh m c := host_wh m c
  have hb : (fun q : S8192.Idx => (E0 (F := Ideal) m ρ c main_v5 : S1x8192.Idx → EReal) (ix2 (0 : Fin 1) (q 0))) = bs m c :=
    funext fun q => (host_b m c (q 0)).trans (congrArg (bs m c) (eq_ix1 q).symm)
  rw [hx, hh, hwi, hwh, hb]

/-- The first result: the new cell state of the arguments. -/
theorem cell_result (c : Dev nD) :
    W3 (F := Ideal) m ρ c (Proc.devRef .tc main_v9_0) = Spec.cell (gatesOf m c) (m ((c.tc : Thread nD τ).loc main_arg2)) := by
  rw [W3_main_v9_0, cell_final (E1 m ρ) c, gates_result, E1_main_arg2]

/-- The second result: the new hidden state of the arguments. -/
theorem hid_result (c : Dev nD) :
    W3 (F := Ideal) m ρ c (Proc.devRef .tc main_v9_1) = Spec.hid (gatesOf m c) (m ((c.tc : Thread nD τ).loc main_arg2)) := by
  rw [W3_main_v9_1, hid_final (E1 m ρ) c, gates_result, E1_main_arg2]

/-- The run, read: every weakly fair execution terminates with the two results at the specification's functions of the
    arguments and the arguments unchanged. -/
theorem run_values : θ_run defs (onTc (τ := τ) (main (F := Ideal))) ⟨m, fun _ => 0, ρ⟩ (fun r => ∀ c : Dev nD,
      r.2.mem ((c.tc : Thread nD τ).loc main_v9_0) = Spec.cell (gatesOf m c) (m ((c.tc : Thread nD τ).loc main_arg2))
      ∧ r.2.mem ((c.tc : Thread nD τ).loc main_v9_1) = Spec.hid (gatesOf m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v9_0 (by decide))).trans (cell_result m ρ c),
     (h c _ (mem_uc main_v9_1 (by decide))).trans (hid_result m ρ c),
     (h c _ (mem_uc main_arg0 (by decide))).trans (W3_kept m ρ c main_arg0 (by decide) (by decide) (by decide)),
     (h c _ (mem_uc main_arg1 (by decide))).trans (W3_kept m ρ c main_arg1 (by decide) (by decide) (by decide)),
     (h c _ (mem_uc main_arg2 (by decide))).trans (W3_main_arg2 m ρ c),
     (h c _ (mem_uc main_arg3 (by decide))).trans (W3_kept m ρ c main_arg3 (by decide) (by decide) (by decide)),
     (h c _ (mem_uc main_arg4 (by decide))).trans (W3_kept m ρ c main_arg4 (by decide) (by decide) (by decide)),
     (h c _ (mem_uc main_arg5 (by decide))).trans (W3_kept m ρ c main_arg5 (by decide) (by decide) (by decide)),
     (h c _ (mem_uc main_arg6 (by decide))).trans (W3_kept m ρ c main_arg6 (by decide) (by decide) (by decide)),
     (h c _ (mem_uc main_arg7 (by decide))).trans (W3_kept m ρ c main_arg7 (by decide) (by decide) (by decide)),
     (h c _ (mem_uc main_arg8 (by decide))).trans (W3_kept m ρ c main_arg8 (by decide) (by decide) (by decide)),
     (h c _ (mem_uc main_arg9 (by decide))).trans (W3_kept m ρ c main_arg9 (by decide) (by decide) (by decide)),
     (h c _ (mem_uc main_arg10 (by decide))).trans (W3_kept m ρ c main_arg10 (by decide) (by decide) (by decide)),
     (h c _ (mem_uc main_arg11 (by decide))).trans (W3_kept m ρ c main_arg11 (by decide) (by decide) (by decide)),
     (h c _ (mem_uc main_arg12 (by decide))).trans (W3_kept m ρ c main_arg12 (by decide) (by decide) (by decide)),
     (h c _ (mem_uc main_arg13 (by decide))).trans (W3_kept m ρ c main_arg13 (by decide) (by decide) (by decide)),
     (h c _ (mem_uc main_arg14 (by decide))).trans (W3_kept m ρ c main_arg14 (by decide) (by decide) (by decide))⟩)
    (run_all m ρ)

end Cert.KernelIdeal.Val

end
-- ==== Proof.RefValue.lean ====
/-
  The reference program computes the specification's cell.

  Read one operation at a time at an index, the program's pre-activation array is, at row r and gate column q, the
  row of the input times the column of the input weights, plus the row of the hidden state times the column of
  the recurrent weights, plus the bias at q: the two bias broadcasts read the bias vector at the column. The four
  column slices of width 2048 read that array at the columns j, 2048 + j, 4096 + j and 6144 + j. The program
  writes the logistic function as one over one plus the exponential of the negation, with the word 0x3F800000 for
  one, and that expression is the logistic function by definition. What remains is the specification's own
  arithmetic: forget gate times the old cell plus input gate times the candidate, and the output gate times the
  hyperbolic tangent of the new cell.

  The three concatenations of the argument arrays are never read at an index: they enter the specification as
  the arrays they are.
-/
import proofs.«131399_j20074677141565_1_alg».proof.Proof.Spec
import proofs.«131399_j20074677141565_1_alg».proof.Proof.Gen.ReferenceIdeal.Run
import proofs.«131399_j20074677141565_1_alg».proof.Proof.Gen.ReferenceIdeal.Read
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- the four gates' input weights side by side, the recurrent weights side by side, the biases one after the other: the reference's own three concatenations of the argument arrays -/
abbrev wi (m : (ℓ : Loc nD τ sig) → Buf (Elt Ideal) ℓ) (c : Dev nD) : Spec.Wts.Idx → EReal :=
  concatenate S2048x8192 1 [⟨S2048x2048, (m ((c.tc : Thread nD τ).loc main_arg3))⟩, ⟨S2048x2048, (m ((c.tc : Thread nD τ).loc main_arg4))⟩, ⟨S2048x2048, (m ((c.tc : Thread nD τ).loc main_arg5))⟩, ⟨S2048x2048, (m ((c.tc : Thread nD τ).loc main_arg6))⟩] concatenates_S2048x2048_S2048x2048_S2048x2048_S2048x2048_S2048x8192_d1

/-- the four gates' recurrent weights side by side -/
abbrev wh (m : (ℓ : Loc nD τ sig) → Buf (Elt Ideal) ℓ) (c : Dev nD) : Spec.Wts.Idx → EReal :=
  concatenate S2048x8192 1 [⟨S2048x2048, (m ((c.tc : Thread nD τ).loc main_arg7))⟩, ⟨S2048x2048, (m ((c.tc : Thread nD τ).loc main_arg8))⟩, ⟨S2048x2048, (m ((c.tc : Thread nD τ).loc main_arg9))⟩, ⟨S2048x2048, (m ((c.tc : Thread nD τ).loc main_arg10))⟩] concatenates_S2048x2048_S2048x2048_S2048x2048_S2048x2048_S2048x8192_d1

/-- the four gates' biases one after the other -/
abbrev bs (m : (ℓ : Loc nD τ sig) → Buf (Elt Ideal) ℓ) (c : Dev nD) : Spec.Bias.Idx → EReal :=
  concatenate S8192 0 [⟨S2048, (m ((c.tc : Thread nD τ).loc main_arg11))⟩, ⟨S2048, (m ((c.tc : Thread nD τ).loc main_arg12))⟩, ⟨S2048, (m ((c.tc : Thread nD τ).loc main_arg13))⟩, ⟨S2048, (m ((c.tc : Thread nD τ).loc main_arg14))⟩] concatenates_S2048_S2048_S2048_S2048_S8192_d0

/-- One over one plus the exponential of the negation, with the word 0x3F800000 for one, is the logistic function. -/
theorem sigmoid_eq (x : Ideal .f32) :
    FloatOps.hostDivf (F := Ideal) (φ := .f32) (FloatOps.ofBits (F := Ideal) .f32 0x3F800000#32)
      (FloatOps.addf (FloatOps.ofBits (F := Ideal) .f32 0x3F800000#32) (FloatOps.hostUnary .exp (FloatOps.hostNegf x))) = Ideal.logistic x := by
  simp only [Ideal.hostDivf_def, Ideal.addf_def, Ideal.hostUnary_exp_def, Ideal.hostNegf_def, Ideal.negf_def, Ideal.ofBits_def, Ideal.ofBits_one_f32]
  rfl

section stages

variable (x0 x1 x2 : (⟨S8192x2048, .f32⟩ : BufTy).Contents (Elt Ideal)) (x3 x4 x5 x6 x7 x8 x9 x10 : (⟨S2048x2048, .f32⟩ : BufTy).Contents (Elt Ideal)) (x11 x12 x13 x14 : (⟨S2048, .f32⟩ : BufTy).Contents (Elt Ideal))

/-- The program's pre-activation array is the specification's, of the program's three concatenations. -/
theorem gates_val :
    Read.val_main_v8 (F := Ideal) x0 x1 x3 x4 x5 x6 x7 x8 x9 x10 x11 x12 x13 x14 = Spec.gates x0 x1 (Read.val_main_v0 (F := Ideal) x3 x4 x5 x6) (Read.val_main_v1 (F := Ideal) x7 x8 x9 x10) (Read.val_main_v2 (F := Ideal) x11 x12 x13 x14) := by
  funext i
  obtain ⟨r, q, rfl⟩ : ∃ (r q : Fin 8192), i = ix2 r q := ⟨i 0, i 1, eq_ix2 i⟩
  rw [Read.val_main_v8_apply, Read.val_main_v5_apply, Read.val_main_v3_apply, Read.val_main_v4_apply, Read.val_main_v7_apply, Read.val_main_v6_apply]
  have e3l : ∀ k : Fin 2048, Read.lidx_main_v3 (ix2 r q) k = ix2 r k := fun k => funext fun a => by
    match a with | ⟨0, _⟩ => rfl | ⟨1, _⟩ => rfl
  have e3r : ∀ k : Fin 2048, Read.ridx_main_v3 (ix2 r q) k = ix2 k q := fun k => funext fun a => by
    match a with | ⟨0, _⟩ => rfl | ⟨1, _⟩ => rfl
  have e4l : ∀ k : Fin 2048, Read.lidx_main_v4 (ix2 r q) k = ix2 r k := fun k => funext fun a => by
    match a with | ⟨0, _⟩ => rfl | ⟨1, _⟩ => rfl
  have e4r : ∀ k : Fin 2048, Read.ridx_main_v4 (ix2 r q) k = ix2 k q := fun k => funext fun a => by
    match a with | ⟨0, _⟩ => rfl | ⟨1, _⟩ => rfl
  have eb : Read.idx_main_v6 (Read.idx_main_v7 (ix2 r q)) = ix1 q := funext fun a => by
    match a with | ⟨0, _⟩ => rfl
  simp only [e3l, e3r, e4l, e4r, eb, Ideal.addf_def]
  rfl

/-- The first result is the specification's new cell state of the program's pre-activation array. -/
theorem cell_val :
    Read.val_main_v34 (F := Ideal) x0 x1 x2 x3 x4 x5 x6 x7 x8 x9 x10 x11 x12 x13 x14 = Spec.cell (Read.val_main_v8 (F := Ideal) x0 x1 x3 x4 x5 x6 x7 x8 x9 x10 x11 x12 x13 x14) x2 := by
  funext i
  obtain ⟨r, j, rfl⟩ : ∃ (r : Fin 8192) (j : Fin 2048), i = ix2 r j := ⟨i 0, i 1, eq_ix2 i⟩
  rw [Read.val_main_v34_apply, Read.val_main_v32_apply, Read.val_main_v24_apply, Read.val_main_v23_apply, Read.val_main_cst_2_apply,
    Read.val_main_v22_apply, Read.val_main_v21_apply, Read.val_main_cst_1_apply, Read.val_main_v20_apply, Read.val_main_v19_apply,
    Read.val_main_v10_apply, Read.val_main_v33_apply, Read.val_main_v18_apply, Read.val_main_v17_apply, Read.val_main_cst_0_apply,
    Read.val_main_v16_apply, Read.val_main_v15_apply, Read.val_main_cst_apply, Read.val_main_v14_apply, Read.val_main_v13_apply,
    Read.val_main_v9_apply, Read.val_main_v25_apply, Read.val_main_v11_apply]
  generalize Read.val_main_v8 (F := Ideal) x0 x1 x3 x4 x5 x6 x7 x8 x9 x10 x11 x12 x13 x14 = g
  have e9 : Read.idx_main_v9 (ix2 r j) = ix2 r (⟨j.val, by omega⟩ : Fin 8192) := funext fun a => by
    match a with | ⟨0, _⟩ => rfl | ⟨1, _⟩ => rfl
  have e10 : Read.idx_main_v10 (ix2 r j) = ix2 r (⟨2048 + j.val, by omega⟩ : Fin 8192) := funext fun a => by
    match a with | ⟨0, _⟩ => rfl | ⟨1, _⟩ => rfl
  have e11 : Read.idx_main_v11 (ix2 r j) = ix2 r (⟨4096 + j.val, by omega⟩ : Fin 8192) := funext fun a => by
    match a with | ⟨0, _⟩ => rfl | ⟨1, _⟩ => rfl
  rw [sigmoid_eq, sigmoid_eq, e9, e10, e11]
  simp only [Ideal.mulf_def, Ideal.addf_def, Ideal.hostUnary_tanh_def]
  rfl

/-- The second result is the specification's new hidden state of the program's pre-activation array. -/
theorem hid_val :
    Read.val_main_v36 (F := Ideal) x0 x1 x2 x3 x4 x5 x6 x7 x8 x9 x10 x11 x12 x13 x14 = Spec.hid (Read.val_main_v8 (F := Ideal) x0 x1 x3 x4 x5 x6 x7 x8 x9 x10 x11 x12 x13 x14) x2 := by
  funext i
  obtain ⟨r, j, rfl⟩ : ∃ (r : Fin 8192) (j : Fin 2048), i = ix2 r j := ⟨i 0, i 1, eq_ix2 i⟩
  rw [Read.val_main_v36_apply, Read.val_main_v31_apply, Read.val_main_v30_apply, Read.val_main_cst_4_apply, Read.val_main_v29_apply,
    Read.val_main_v28_apply, Read.val_main_cst_3_apply, Read.val_main_v27_apply, Read.val_main_v26_apply, Read.val_main_v12_apply,
    Read.val_main_v35_apply, cell_val]
  generalize Read.val_main_v8 (F := Ideal) x0 x1 x3 x4 x5 x6 x7 x8 x9 x10 x11 x12 x13 x14 = g
  have e12 : Read.idx_main_v12 (ix2 r j) = ix2 r (⟨6144 + j.val, by omega⟩ : Fin 8192) := funext fun a => by
    match a with | ⟨0, _⟩ => rfl | ⟨1, _⟩ => rfl
  rw [sigmoid_eq, e12]
  simp only [Ideal.mulf_def, Ideal.hostUnary_tanh_def]
  rfl

end stages

/-- The reference's first result, the new cell state, is the specification's cell of the argument arrays. -/
theorem out0_eq (m : (ℓ : Loc nD τ sig) → Buf (Elt Ideal) ℓ) (c : Dev nD) :
    Value.res_out0 (F := Ideal) m c = Spec.cell (Spec.gates (m ((c.tc : Thread nD τ).loc main_arg0)) (m ((c.tc : Thread nD τ).loc main_arg1)) (wi m c) (wh m c) (bs m c)) (m ((c.tc : Thread nD τ).loc main_arg2)) := by
  refine (Read.val_main_v34_eq (F := Ideal) m c).trans ?_
  rw [cell_val, gates_val]
  rfl

/-- The reference's second result, the new hidden state, is the specification's hidden state of the argument arrays. -/
theorem out1_eq (m : (ℓ : Loc nD τ sig) → Buf (Elt Ideal) ℓ) (c : Dev nD) :
    Value.res_out1 (F := Ideal) m c = Spec.hid (Spec.gates (m ((c.tc : Thread nD τ).loc main_arg0)) (m ((c.tc : Thread nD τ).loc main_arg1)) (wi m c) (wh m c) (bs m c)) (m ((c.tc : Thread nD τ).loc main_arg2)) := by
  refine (Read.val_main_v36_eq (F := Ideal) m c).trans ?_
  rw [hid_val, gates_val]
  rfl

end Cert.ReferenceIdeal.RefValue

end
-- ==== Proof.lean ====
/-
  An LSTM cell in two fused TPU kernels against its plain reference, over the extended reals.

  The kernel program concatenates the four gates' weights and biases, casts the matmul operands to a narrower float
  format, computes all gate pre-activations in one tiled kernel (row tile of the input times column tile of the input
  weights, plus row tile of the hidden state times column tile of the recurrent weights, plus the bias row), and
  applies the gates in a second kernel (logistic of the input, forget and output columns, tanh of the candidate
  columns; new cell = forget · old cell + input · candidate; new hidden = output · tanh of the new cell). The reference
  does the same with two whole matrix products and jax's expansion of the logistic function, 1 / (1 + e⁻ˣ).

  Over the extended reals a cast is the identity, a tile of a matrix product into a zero accumulator is the plain sum
  over the contracted index of the same products in the same order, and the logistic function IS that quotient, so both
  programs compute, index by index, the one term `Spec.cell` / `Spec.hid` of `Spec.gates` of the arguments: no law of
  the extended reals beyond reading the word 0x3F800000 as 1 is used, and the precondition is never opened.

  The frames: each program's run is the host stretch followed by the two pipelines, every buffer's contents folded
  through the three segments; no segment writes an argument. The reference's frame is its run with the results dropped.
  The idealized kernel program is the word-level one's own text (no rewrite was applied), so `preserves` is `True`.
-/
import proofs.«131399_j20074677141565_1_alg».proof.Defs
import proofs.«131399_j20074677141565_1_alg».proof.Proof.Gen.Kernel
import proofs.«131399_j20074677141565_1_alg».proof.Proof.Gen.KernelIdeal
import proofs.«131399_j20074677141565_1_alg».proof.Proof.Gen.ReferenceIdeal
import proofs.«131399_j20074677141565_1_alg».proof.Proof.Gen.ReferenceIdeal.Run
import proofs.«131399_j20074677141565_1_alg».proof.Proof.Gen.Pre_finite_inputs
import proofs.«131399_j20074677141565_1_alg».proof.Proof.K.Whole
import proofs.«131399_j20074677141565_1_alg».proof.Proof.KI.Result
import proofs.«131399_j20074677141565_1_alg».proof.Proof.RefValue

noncomputable section

namespace Cert.Proof

open Idealize.ShloMosaic Idealize.SL.Sem

/-- The word-level kernel program terminates, faults nowhere and leaves its arguments as launched. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel program was rewritten for the ideal reading. -/
theorem preserves : Cert.preserves_Kernel_KernelIdeal := trivial

/-- Laying four matrices side by side respects equality of the pieces. -/
private theorem side_by_side_congr {a b c d a' b' c' d' : Cert.KernelIdeal.S2048x2048.Idx → EReal}
    (h1 : a = a') (h2 : b = b') (h3 : c = c') (h4 : d = d')
    (f f' : Shape.Concatenates [Cert.KernelIdeal.S2048x2048, Cert.KernelIdeal.S2048x2048, Cert.KernelIdeal.S2048x2048, Cert.KernelIdeal.S2048x2048] Cert.KernelIdeal.S2048x8192 1) :
    concatenate Cert.KernelIdeal.S2048x8192 1 [⟨Cert.KernelIdeal.S2048x2048, a⟩, ⟨Cert.KernelIdeal.S2048x2048, b⟩, ⟨Cert.KernelIdeal.S2048x2048, c⟩, ⟨Cert.KernelIdeal.S2048x2048, d⟩] f
      = concatenate Cert.KernelIdeal.S2048x8192 1 [⟨Cert.KernelIdeal.S2048x2048, a'⟩, ⟨Cert.KernelIdeal.S2048x2048, b'⟩, ⟨Cert.KernelIdeal.S2048x2048, c'⟩, ⟨Cert.KernelIdeal.S2048x2048, d'⟩] f' := by
  subst h1 h2 h3 h4; rfl

/-- Laying four vectors one after the other respects equality of the pieces. -/
private theorem end_to_end_congr {a b c d a' b' c' d' : Cert.KernelIdeal.S2048.Idx → EReal}
    (h1 : a = a') (h2 : b = b') (h3 : c = c') (h4 : d = d')
    (f f' : Shape.Concatenates [Cert.KernelIdeal.S2048, Cert.KernelIdeal.S2048, Cert.KernelIdeal.S2048, Cert.KernelIdeal.S2048] Cert.KernelIdeal.S8192 0) :
    concatenate Cert.KernelIdeal.S8192 0 [⟨Cert.KernelIdeal.S2048, a⟩, ⟨Cert.KernelIdeal.S2048, b⟩, ⟨Cert.KernelIdeal.S2048, c⟩, ⟨Cert.KernelIdeal.S2048, d⟩] f
      = concatenate Cert.KernelIdeal.S8192 0 [⟨Cert.KernelIdeal.S2048, a'⟩, ⟨Cert.KernelIdeal.S2048, b'⟩, ⟨Cert.KernelIdeal.S2048, c'⟩, ⟨Cert.KernelIdeal.S2048, d'⟩] f' := by
  subst h1 h2 h3 h4; rfl

/-- Both idealized programs end with the specification's new cell state and new hidden state of the (agreeing)
    arguments. -/
theorem algebraic : Cert.algebraic_KernelIdeal_ReferenceIdeal := by
  intro m ρ m' ρ' _ hagree
  refine ⟨fun c => Cert.Spec.cell (Cert.KernelIdeal.Val.gatesOf m c) (m ((c.tc : Thread Cert.KernelIdeal.nD Cert.KernelIdeal.τ).loc Cert.KernelIdeal.main_arg2)),
    fun c => Cert.Spec.hid (Cert.KernelIdeal.Val.gatesOf m c) (m ((c.tc : Thread Cert.KernelIdeal.nD Cert.KernelIdeal.τ).loc Cert.KernelIdeal.main_arg2)),
    Cert.KernelIdeal.Val.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14⟩ := hagree c
    have hwi : Cert.ReferenceIdeal.RefValue.wi m' c = Cert.KernelIdeal.Val.wi m c := side_by_side_congr e3 e4 e5 e6 _ _
    have hwh : Cert.ReferenceIdeal.RefValue.wh m' c = Cert.KernelIdeal.Val.wh m c := side_by_side_congr e7 e8 e9 e10 _ _
    have hbs : Cert.ReferenceIdeal.RefValue.bs m' c = Cert.KernelIdeal.Val.bs m c := end_to_end_congr e11 e12 e13 e14 _ _
    refine (Cert.ReferenceIdeal.RefValue.out0_eq m' c).trans ?_
    rw [hwi, hwh, hbs, e0, e1, e2]
  · obtain ⟨e0, e1, e2, e3, e4, e5, e6, e7, e8, e9, e10, e11, e12, e13, e14⟩ := hagree c
    have hwi : Cert.ReferenceIdeal.RefValue.wi m' c = Cert.KernelIdeal.Val.wi m c := side_by_side_congr e3 e4 e5 e6 _ _
    have hwh : Cert.ReferenceIdeal.RefValue.wh m' c = Cert.KernelIdeal.Val.wh m c := side_by_side_congr e7 e8 e9 e10 _ _
    have hbs : Cert.ReferenceIdeal.RefValue.bs m' c = Cert.KernelIdeal.Val.bs m c := end_to_end_congr e11 e12 e13 e14 _ _
    refine (Cert.ReferenceIdeal.RefValue.out1_eq m' c).trans ?_
    rw [hwi, hwh, hbs, e0, e1, e2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
